-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16 : Shape := ⟨2, ![32, 16]⟩
abbrev S32x10000 : Shape := ⟨2, ![32, 10000]⟩
abbrev S10000x256 : Shape := ⟨2, ![10000, 256]⟩
abbrev S257x256 : Shape := ⟨2, ![257, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S32x16 : S_.BroadcastsInDim S32x16 (![] : Fin 0 → Fin S32x16.rank)
  reducesTo_S32x16_S_d0_1 : S32x16.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S257x256 : S_.BroadcastsInDim S257x256 (![] : Fin 0 → Fin S257x256.rank)
  reducesTo_S257x256_S_d0_1 : S257x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S32x10000 : S_.BroadcastsInDim S32x10000 (![] : Fin 0 → Fin S32x10000.rank)
  reducesTo_S32x10000_S_d0_1 : S32x10000.ReducesTo [0, 1] S_

variable [Facts]

def fn_part2 {F : FTy → Type} [FloatOps F] (main_v28 : IVec S_ 1) (main_v33 : IVec S32x10000 1) : IVec S_ 1 :=
  let main_c_12 : IVec S_ 1 := constantI S_ 1 1#1
  let main_v34 : IVec S_ 1 := (fun x v => Host.reduce IntOp.andi x v reducesTo_S32x10000_S_d0_1 h_S_) main_v33 main_c_12
  let main_v35 : IVec S_ 1 := andi main_v28 main_v34
  main_v35

def fn_part1 {F : FTy → Type} [FloatOps F] (main_arg1 : IVec S32x10000 32) (main_arg5 : FVec F S256x2 .f32) (main_arg6 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x2 .f32 := Host.absf main_arg5
  let main_cst_6 : FVec F S_ .f32 := constant S_ .f32 0x7F800000#32
  let main_v20 : FVec F S256x2 .f32 := broadcastInDim S256x2 ![] bcast_S_S256x2 main_cst_6
  let main_v21 : IVec S256x2 1 := cmpf .olt main_v19 main_v20
  let main_c_7 : IVec S_ 1 := constantI S_ 1 1#1
  let main_v22 : IVec S_ 1 := (fun x v => Host.reduce IntOp.andi x v reducesTo_S256x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_c_10 : IVec S_ 32 := constantI S_ 32 0#32
  let main_v29 : IVec S32x10000 32 := broadcastInDim S32x10000 ![] bcast_S_S32x10000 main_c_10
  let main_v30 : IVec S32x10000 1 := cmpi .sge main_arg1 main_v29
  let main_c_11 : IVec S_ 32 := constantI S_ 32 16#32
  let main_v31 : IVec S32x10000 32 := broadcastInDim S32x10000 ![] bcast_S_S32x10000 main_c_11
  let main_v32 : IVec S32x10000 1 := cmpi .slt main_arg1 main_v31
  let main_v33 : IVec S32x10000 1 := andi main_v30 main_v32
  fn_part2 (F := F) main_v28 main_v33

def fn {F : FTy → Type} [FloatOps F] (main_arg0 : FVec F S32x16 .f32) (main_arg1 : IVec S32x10000 32) (main_arg2 : FVec F S10000x256 .f32) (main_arg3 : FVec F S257x256 .f32) (main_arg4 : FVec F S256 .f32) (main_arg5 : FVec F S256x2 .f32) (main_arg6 : FVec F S2 .f32) : IVec S_ 1 :=
  let main_v0 : FVec F S32x16 .f32 := Host.absf main_arg0
  let main_cst : FVec F S_ .f32 := constant S_ .f32 0x7F800000#32
  let main_v1 : FVec F S32x16 .f32 := broadcastInDim S32x16 ![] bcast_S_S32x16 main_cst
  let main_v2 : IVec S32x16 1 := cmpf .olt main_v0 main_v1
  let main_c : IVec S_ 1 := constantI S_ 1 1#1
  let main_v3 : IVec S_ 1 := (fun x v => Host.reduce IntOp.andi x v reducesTo_S32x16_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S257x256 .f32 := Host.absf main_arg3
  let main_cst_2 : FVec F S_ .f32 := constant S_ .f32 0x7F800000#32
  let main_v10 : FVec F S257x256 .f32 := broadcastInDim S257x256 ![] bcast_S_S257x256 main_cst_2
  let main_v11 : IVec S257x256 1 := cmpf .olt main_v9 main_v10
  let main_c_3 : IVec S_ 1 := constantI S_ 1 1#1
  let main_v12 : IVec S_ 1 := (fun x v => Host.reduce IntOp.andi x v reducesTo_S257x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S32x16 : Shape := ⟨2, ![32, 16]⟩
abbrev S32x10000 : Shape := ⟨2, ![32, 10000]⟩
abbrev S10000x256 : Shape := ⟨2, ![10000, 256]⟩
abbrev S257x256 : Shape := ⟨2, ![257, 256]⟩
abbrev S256 : Shape := ⟨1, ![256]⟩
abbrev S256x2 : Shape := ⟨2, ![256, 2]⟩
abbrev S2 : Shape := ⟨1, ![2]⟩
abbrev S32x16x1 : Shape := ⟨3, ![32, 16, 1]⟩
abbrev S256x10000 : Shape := ⟨2, ![256, 10000]⟩
abbrev S256x256 : Shape := ⟨2, ![256, 256]⟩
abbrev S1x256 : Shape := ⟨2, ![1, 256]⟩
abbrev S256x1 : Shape := ⟨2, ![256, 1]⟩
abbrev S2x256 : Shape := ⟨2, ![2, 256]⟩
abbrev S2x1 : Shape := ⟨2, ![2, 1]⟩
abbrev S32x2x10000 : Shape := ⟨3, ![32, 2, 10000]⟩
abbrev S32x1024 : Shape := ⟨2, ![32, 1024]⟩
abbrev S256x1024 : Shape := ⟨2, ![256, 1024]⟩
abbrev S32x2x1024 : Shape := ⟨3, ![32, 2, 1024]⟩
abbrev S16x1024 : Shape := ⟨2, ![16, 1024]⟩
abbrev S1x1024 : Shape := ⟨2, ![1, 1024]⟩
abbrev S1024 : Shape := ⟨1, ![1024]⟩
abbrev S1x16x1 : Shape := ⟨3, ![1, 16, 1]⟩
abbrev S16x1 : Shape := ⟨2, ![16, 1]⟩
abbrev S2x1024 : Shape := ⟨2, ![2, 1024]⟩
abbrev S1x2x1024 : Shape := ⟨3, ![1, 2, 1024]⟩
abbrev S32x10000x2 : Shape := ⟨3, ![32, 10000, 2]⟩

abbrev nBuf : Space → Nat
  | .hbm => 19
  | .vmem => 12
  | .smem => 0
  | _ => 0

abbrev bufTy : (tb : Table) → Fin (tcTables nBuf tb) → BufTy
  | .hbm, ⟨0, _⟩ => ⟨S32x16, .f32⟩
  | .hbm, ⟨1, _⟩ => ⟨S32x10000, .i32⟩
  | .hbm, ⟨2, _⟩ => ⟨S10000x256, .f32⟩
  | .hbm, ⟨3, _⟩ => ⟨S257x256, .f32⟩
  | .hbm, ⟨4, _⟩ => ⟨S256, .f32⟩
  | .hbm, ⟨5, _⟩ => ⟨S256x2, .f32⟩
  | .hbm, ⟨6, _⟩ => ⟨S2, .f32⟩
  | .hbm, ⟨7, _⟩ => ⟨S32x16x1, .f32⟩
  | .hbm, ⟨8, _⟩ => ⟨S256x10000, .f32⟩
  | .hbm, ⟨9, _⟩ => ⟨S256x256, .f32⟩
  | .hbm, ⟨10, _⟩ => ⟨S256x256, .f32⟩
  | .hbm, ⟨11, _⟩ => ⟨S1x256, .f32⟩
  | .hbm, ⟨12, _⟩ => ⟨S256, .f32⟩
  | .hbm, ⟨13, _⟩ => ⟨S256x1, .f32⟩
  | .hbm, ⟨14, _⟩ => ⟨S256x1, .f32⟩
  | .hbm, ⟨15, _⟩ => ⟨S2x256, .f32⟩
  | .hbm, ⟨16, _⟩ => ⟨S2x1, .f32⟩
  | .hbm, ⟨17, _⟩ => ⟨S32x2x10000, .f32⟩
  | .hbm, ⟨18, _⟩ => ⟨S32x10000x2, .f32⟩
  | .local _ .vmem, ⟨0, _⟩ => ⟨S32x1024, .i32⟩
  | .local _ .vmem, ⟨1, _⟩ => ⟨S32x1024, .i32⟩
  | .local _ .vmem, ⟨2, _⟩ => ⟨S32x16x1, .f32⟩
  | .local _ .vmem, ⟨3, _⟩ => ⟨S256x1024, .f32⟩
  | .local _ .vmem, ⟨4, _⟩ => ⟨S256x1024, .f32⟩
  | .local _ .vmem, ⟨5, _⟩ => ⟨S256x256, .f32⟩
  | .local _ .vmem, ⟨6, _⟩ => ⟨S256x1, .f32⟩
  | .local _ .vmem, ⟨7, _⟩ => ⟨S256x1, .f32⟩
  | .local _ .vmem, ⟨8, _⟩ => ⟨S2x256, .f32⟩
  | .local _ .vmem, ⟨9, _⟩ => ⟨S2x1, .f32⟩
  | .local _ .vmem, ⟨10, _⟩ => ⟨S32x2x1024, .f32⟩
  | .local _ .vmem, ⟨11, _⟩ => ⟨S32x2x1024, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32 : BitVec 32 := 0#32
  let c32_i32 : BitVec 32 := 32#32
  let v21 : BitVec 32 := Scalar.addi c0_i32 c32_i32
  let c1_i32 : BitVec 32 := 1#32
  ⟨c0_i32, v21, c1_i32⟩
def k0_off1 (k0_t1 : Fin k0_t1_loop.trips) : Fin 2 → Nat :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v22 : BitVec 32 := Scalar.muli arg10 c1_i32_12
  let v23 : BitVec 32 := Scalar.addi c0_i32_13 v22
  let v24 : Index := Scalar.indexCast v23
  let c0_14 : Index := 0#32
  ![v24.toNat, 0]
def k0_off2 (k0_t1 : Fin k0_t1_loop.trips) : Fin 3 → Nat :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v22 : BitVec 32 := Scalar.muli arg10 c1_i32_12
  let v23 : BitVec 32 := Scalar.addi c0_i32_13 v22
  let v32 : Index := Scalar.indexCast v23
  let c0_15 : Index := 0#32
  let c0_16 : Index := 0#32
  ![v32.toNat, 0, 0]
def k0_off3 (k0_t1 : Fin k0_t1_loop.trips) : Fin 3 → Nat :=
  let c0_i32_13 : BitVec 32 := 0#32
  let c0_i32 : BitVec 32 := 0#32
  let c1_i32 : BitVec 32 := 1#32
  let arg10 : BitVec 32 := Scf.iv c0_i32 c1_i32 k0_t1
  let c1_i32_12 : BitVec 32 := 1#32
  let v22 : BitVec 32 := Scalar.muli arg10 c1_i32_12
  let v23 : BitVec 32 := Scalar.addi c0_i32_13 v22
  let v49 : Index := Scalar.indexCast v23
  let c0_20 : Index := 0#32
  let c0_21 : Index := 0#32
  ![v49.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S32x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S32x16_S32x16x1_0_1 : S32x16.BroadcastsInDim S32x16x1 (![0, 1] : Fin 2 → Fin S32x16x1.rank)
  transposes_S10000x256_S256x10000_1_0 : S10000x256.Transposes [1, 0] S256x10000
  slices_S257x256_S256x256_1_0 : S257x256.Slices ![1, 0] S256x256
  transposes_S256x256_S256x256_1_0 : S256x256.Transposes [1, 0] S256x256
  slices_S257x256_S1x256_0_0 : S257x256.Slices ![0, 0] S1x256
  shapeCasts_S1x256_S256 : S1x256.ShapeCasts S256
  bcast_S256_S256x1_0 : S256.BroadcastsInDim S256x1 (![0] : Fin 1 → Fin S256x1.rank)
  transposes_S256x2_S2x256_1_0 : S256x2.Transposes [1, 0] S2x256
  bcast_S2_S2x1_0 : S2.BroadcastsInDim S2x1 (![0] : Fin 1 → Fin S2x1.rank)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  bitsLt_bf16_f32 : FTy.bits .bf16 < FTy.bits .f32
  broadcasts_S256x1_S256x1024 : S256x1.Broadcasts S256x1024
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2x1_S2x1_0_0 : ∀ a, (![0, 0] : Fin 2 → Nat) a + S2x1.size a ≤ S2x1.size a
  h_S2x1 : 0 < S2x1.numel
  shapeCasts_S2x1_S2x1 : S2x1.ShapeCasts S2x1
  iota_S16x1024_d0_w32 : S16x1024.Iotas .tc 32 [0]
  h_S1x1024 : 0 < S1x1024.numel
  shapeCasts_S1x1024_S1024 : S1x1024.ShapeCasts S1024
  shapeCasts_S1024_S1x1024 : S1024.ShapeCasts S1x1024
  broadcasts_S1x1024_S16x1024 : S1x1024.Broadcasts S16x1024
  natLt_1_32 : 1 < 32
  h_S1x16x1 : 0 < S1x16x1.numel
  shapeCasts_S1x16x1_S16x1 : S1x16x1.ShapeCasts S16x1
  broadcasts_S16x1_S16x1024 : S16x1.Broadcasts S16x1024
  reduces_S16x1024_S1024 : S16x1024.Reduces [0] S1024
  broadcasts_S1x1024_S256x1024 : S1x1024.Broadcasts S256x1024
  broadcasts_S2x1_S2x1024 : S2x1.Broadcasts S2x1024
  h_S1x2x1024 : 0 < S1x2x1024.numel
  shapeCasts_S1x2x1024_S2x1024 : S1x2x1024.ShapeCasts S2x1024
  shapeCasts_S2x1024_S1x2x1024 : S2x1024.ShapeCasts S1x2x1024
  transposes_S32x2x10000_S32x10000x2_0_2_1 : S32x2x10000.Transposes [0, 2, 1] S32x10000x2
  dot_S256x256_S256x1024_S256x1024_1_0_0_1_n_n_wf : DotDims.WF S256x256 S256x1024 S256x1024 [1] [0] [0] [1] [] []
  dot_S2x256_S256x1024_S2x1024_1_0_0_1_n_n_wf : DotDims.WF S2x256 S256x1024 S2x1024 [1] [0] [0] [1] [] []
  hrank0 : 0 < grid0.rank
  k0_t1_ok : k0_t1_loop.OK
  k0_off1_inb : ∀ k0_t1 : Fin k0_t1_loop.trips, ∀ a, (k0_off1 k0_t1) a + S1x1024.size a ≤ S32x1024.size a
  k0_off2_inb : ∀ k0_t1 : Fin k0_t1_loop.trips, ∀ a, (k0_off2 k0_t1) a + S1x16x1.size a ≤ S32x16x1.size a
  k0_off3_inb : ∀ k0_t1 : Fin k0_t1_loop.trips, ∀ a, (k0_off3 k0_t1) a + S1x2x1024.size a ≤ S32x2x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x1024.size a < S32x10000.size a
  hwx0_0 : ∀ i : grid0.Coords, EltTy.bits .i32 = 32 ∨ (Rect.unit (s := S32x10000) (fun a => cc0_transform_0 i a * S32x1024.size a) (fun a => (Pipeline.Clip.of (cc0_transform_0 i a) (S32x1024.size a) (S32x10000.size a)).extent (S32x1024.size a)) fun a => Pipeline.Clip.inb (Pipeline.Clip.ok_of (hstart0_0 i a))).WholeWords (EltTy.packing .i32)
  hwxs0_0 : ∀ i : grid0.Coords, EltTy.bits .i32 = 32 ∨ (Rect.unit (s := S32x1024) (fun _ => 0) (fun a => (Pipeline.Clip.of (cc0_transform_0 i a) (S32x1024.size a) (S32x10000.size a)).extent (S32x1024.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16x1.size a ≤ S32x16x1.size a
  hwx0_1 : ∀ i : grid0.Coords, EltTy.bits .f32 = 32 ∨ (Rect.block (s := S32x16x1) S32x16x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x1024.size a < S256x10000.size a
  hwx0_2 : ∀ i : grid0.Coords, EltTy.bits .f32 = 32 ∨ (Rect.unit (s := S256x10000) (fun a => cc0_transform_2 i a * S256x1024.size a) (fun a => (Pipeline.Clip.of (cc0_transform_2 i a) (S256x1024.size a) (S256x10000.size a)).extent (S256x1024.size a)) fun a => Pipeline.Clip.inb (Pipeline.Clip.ok_of (hstart0_2 i a))).WholeWords (EltTy.packing .f32)
  hwxs0_2 : ∀ i : grid0.Coords, EltTy.bits .f32 = 32 ∨ (Rect.unit (s := S256x1024) (fun _ => 0) (fun a => (Pipeline.Clip.of (cc0_transform_2 i a) (S256x1024.size a) (S256x10000.size a)).extent (S256x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x256.size a ≤ S2x256.size a
  hwx0_6 : ∀ i : grid0.Coords, EltTy.bits .f32 = 32 ∨ (Rect.block (s := S2x256) S2x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x1.size a ≤ S2x1.size a
  hwx0_7 : ∀ i : grid0.Coords, EltTy.bits .f32 = 32 ∨ (Rect.block (s := S2x1) S2x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S32x2x1024.size a < S32x2x10000.size a
  hwx0_8 : ∀ i : grid0.Coords, EltTy.bits .f32 = 32 ∨ (Rect.unit (s := S32x2x10000) (fun a => cc0_transform_8 i a * S32x2x1024.size a) (fun a => (Pipeline.Clip.of (cc0_transform_8 i a) (S32x2x1024.size a) (S32x2x10000.size a)).extent (S32x2x1024.size a)) fun a => Pipeline.Clip.inb (Pipeline.Clip.ok_of (hstart0_8 i a))).WholeWords (EltTy.packing .f32)
  hwxs0_8 : ∀ i : grid0.Coords, EltTy.bits .f32 = 32 ∨ (Rect.unit (s := S32x2x1024) (fun _ => 0) (fun a => (Pipeline.Clip.of (cc0_transform_8 i a) (S32x2x1024.size a) (S32x2x10000.size a)).extent (S32x2x1024.size a)) fun a => (Nat.zero_add _).trans_le (Pipeline.Clip.extent_le (Pipeline.Clip.ok_of (hstart0_8 i a)))).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S2x256_S256x1024_S2x1024_1_0_0_1_n_n : DotDims S2x256 S256x1024 S2x1024 where
  lhsContracting := [1]
  rhsContracting := [0]
  lhsNonContracting := [0]
  rhsNonContracting := [1]
  lhsBatch := []
  rhsBatch := []
  wf := dot_S2x256_S256x1024_S2x1024_1_0_0_1_n_n_wf

abbrev win0_0 : Pipeline.Window sig grid0 :=
  Pipeline.Window.ofSpecClip (Memref.whole main_arg1) S32x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S32x16x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v1) S256x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpecClip (Memref.whole main_v10) S32x2x1024.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x16 : Shape := ⟨2, ![32, 16]⟩
abbrev S32x10000 : Shape := ⟨2, ![32, 10000]⟩
abbrev S10000x256 : Shape := ⟨2, ![10000, 256]⟩
abbrev S257x256 : Shape := ⟨2, ![257, 256]⟩
abbrev S256 : Shape := ⟨1, ![256]⟩
abbrev S256x2 : Shape := ⟨2, ![256, 2]⟩
abbrev S2 : Shape := ⟨1, ![2]⟩
abbrev S_ : Shape := ⟨0, ![]⟩
abbrev S32x10000x1 : Shape := ⟨3, ![32, 10000, 1]⟩
abbrev S1 : Shape := ⟨1, ![1]⟩
abbrev S1x1x1 : Shape := ⟨3, ![1, 1, 1]⟩
abbrev S1x10000x256 : Shape := ⟨3, ![1, 10000, 256]⟩
abbrev S32x10000x256 : Shape := ⟨3, ![32, 10000, 256]⟩
abbrev S32x10000x257 : Shape := ⟨3, ![32, 10000, 257]⟩
abbrev S1x1x256 : Shape := ⟨3, ![1, 1, 256]⟩
abbrev S32x10000x2 : Shape := ⟨3, ![32, 10000, 2]⟩
abbrev S1x1x2 : Shape := ⟨3, ![1, 1, 2]⟩

abbrev nBuf : Space → Nat
  | .hbm => 44
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S32x10000, .i32⟩
  | .hbm, ⟨2, _⟩ => ⟨S10000x256, .f32⟩
  | .hbm, ⟨3, _⟩ => ⟨S257x256, .f32⟩
  | .hbm, ⟨4, _⟩ => ⟨S256, .f32⟩
  | .hbm, ⟨5, _⟩ => ⟨S256x2, .f32⟩
  | .hbm, ⟨6, _⟩ => ⟨S2, .f32⟩
  | .hbm, ⟨7, _⟩ => ⟨S_, .i32⟩
  | .hbm, ⟨8, _⟩ => ⟨S32x10000, .i32⟩
  | .hbm, ⟨9, _⟩ => ⟨S32x10000, .i1⟩
  | .hbm, ⟨10, _⟩ => ⟨S_, .i32⟩
  | .hbm, ⟨11, _⟩ => ⟨S32x10000, .i32⟩
  | .hbm, ⟨12, _⟩ => ⟨S32x10000, .i32⟩
  | .hbm, ⟨13, _⟩ => ⟨S32x10000, .i32⟩
  | .hbm, ⟨14, _⟩ => ⟨S32x10000x1, .i32⟩
  | .hbm, ⟨15, _⟩ => ⟨S1, .i32⟩
  | .hbm, ⟨16, _⟩ => ⟨S_, .i32⟩
  | .hbm, ⟨17, _⟩ => ⟨S32x10000x1, .i32⟩
  | .hbm, ⟨18, _⟩ => ⟨S32x10000x1, .i1⟩
  | .hbm, ⟨19, _⟩ => ⟨S1x1x1, .i32⟩
  | .hbm, ⟨20, _⟩ => ⟨S32x10000x1, .i32⟩
  | .hbm, ⟨21, _⟩ => ⟨S32x10000x1, .i1⟩
  | .hbm, ⟨22, _⟩ => ⟨S32x10000x1, .i1⟩
  | .hbm, ⟨23, _⟩ => ⟨S_, .i1⟩
  | .hbm, ⟨24, _⟩ => ⟨S32x10000, .i1⟩
  | .hbm, ⟨25, _⟩ => ⟨S32x10000, .f32⟩
  | .hbm, ⟨26, _⟩ => ⟨S_, .f32⟩
  | .hbm, ⟨27, _⟩ => ⟨S32x10000, .f32⟩
  | .hbm, ⟨28, _⟩ => ⟨S32x10000, .f32⟩
  | .hbm, ⟨29, _⟩ => ⟨S32x10000x1, .f32⟩
  | .hbm, ⟨30, _⟩ => ⟨S1x10000x256, .f32⟩
  | .hbm, ⟨31, _⟩ => ⟨S32x10000x256, .f32⟩
  | .hbm, ⟨32, _⟩ => ⟨S32x10000x257, .f32⟩
  | .hbm, ⟨33, _⟩ => ⟨S32x10000x256, .f32⟩
  | .hbm, ⟨34, _⟩ => ⟨S1x1x256, .f32⟩
  | .hbm, ⟨35, _⟩ => ⟨S32x10000x256, .f32⟩
  | .hbm, ⟨36, _⟩ => ⟨S32x10000x256, .f32⟩
  | .hbm, ⟨37, _⟩ => ⟨S_, .f32⟩
  | .hbm, ⟨38, _⟩ => ⟨S32x10000x256, .f32⟩
  | .hbm, ⟨39, _⟩ => ⟨S32x10000x256, .f32⟩
  | .hbm, ⟨40, _⟩ => ⟨S32x10000x2, .f32⟩
  | .hbm, ⟨41, _⟩ => ⟨S1x1x2, .f32⟩
  | .hbm, ⟨42, _⟩ => ⟨S32x10000x2, .f32⟩
  | .hbm, ⟨43, _⟩ => ⟨S32x10000x2, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_cst : Ref sig .tc := ⟨.hbm, 37, rfl⟩
abbrev main_call1_v0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩

abbrev nD : Nat := 1
abbrev τ : Topo := Topo.v7x

variable {F : FTy → Type} [FloatOps F]

class Facts₀ : Prop where
  bcast_S_S32x10000 : S_.BroadcastsInDim S32x10000 (![] : Fin 0 → Fin S32x10000.rank)
  shapeCasts_S32x10000_S32x10000x1 : S32x10000.ShapeCasts S32x10000x1
  bcast_S_S32x10000x1 : S_.BroadcastsInDim S32x10000x1 (![] : Fin 0 → Fin S32x10000x1.rank)
  bcast_S1_S1x1x1_2 : S1.BroadcastsInDim S1x1x1 (![2] : Fin 1 → Fin S1x1x1.rank)
  bcast_S1x1x1_S32x10000x1_0_1_2 : S1x1x1.BroadcastsInDim S32x10000x1 (![0, 1, 2] : Fin 3 → Fin S32x10000x1.rank)
  reducesTo_S32x10000x1_S32x10000_d2 : S32x10000x1.ReducesTo [2] S32x10000
  h_S_ : 0 < S_.numel
  bcast_S32x10000_S32x10000x1_0_1 : S32x10000.BroadcastsInDim S32x10000x1 (![0, 1] : Fin 2 → Fin S32x10000x1.rank)
  bcast_S10000x256_S1x10000x256_1_2 : S10000x256.BroadcastsInDim S1x10000x256 (![1, 2] : Fin 2 → Fin S1x10000x256.rank)
  bcast_S1x10000x256_S32x10000x256_0_1_2 : S1x10000x256.BroadcastsInDim S32x10000x256 (![0, 1, 2] : Fin 3 → Fin S32x10000x256.rank)
  concatenates_S32x10000x1_S32x10000x256_S32x10000x257_d2 : Shape.Concatenates [S32x10000x1, S32x10000x256] S32x10000x257 2
  bcast_S256_S1x1x256_2 : S256.BroadcastsInDim S1x1x256 (![2] : Fin 1 → Fin S1x1x256.rank)
  bcast_S1x1x256_S32x10000x256_0_1_2 : S1x1x256.BroadcastsInDim S32x10000x256 (![0, 1, 2] : Fin 3 → Fin S32x10000x256.rank)
  bcast_S_S32x10000x256 : S_.BroadcastsInDim S32x10000x256 (![] : Fin 0 → Fin S32x10000x256.rank)
  bcast_S2_S1x1x2_2 : S2.BroadcastsInDim S1x1x2 (![2] : Fin 1 → Fin S1x1x2.rank)
  bcast_S1x1x2_S32x10000x2_0_1_2 : S1x1x2.BroadcastsInDim S32x10000x2 (![0, 1, 2] : Fin 3 → Fin S32x10000x2.rank)
  gather_S32x16_S32x10000x1_S32x10000_n_1_0_0_1_2_11_wf : GatherDims.WF S32x16 S32x10000x1 S32x10000 [] [1] [0] [1] [0] 2 ![1, 1]
  dot_S32x10000x257_S257x256_S32x10000x256_2_0_01_1_n_n_wf : DotDims.WF S32x10000x257 S257x256 S32x10000x256 [2] [0] [0, 1] [1] [] []
  dot_S32x10000x256_S256x2_S32x10000x2_2_0_01_1_n_n_wf : DotDims.WF S32x10000x256 S256x2 S32x10000x2 [2] [0] [0, 1] [1] [] []

variable [Facts₀]

def gather_S32x16_S32x10000x1_S32x10000_n_1_0_0_1_2_11 : GatherDims S32x16 S32x10000x1 S32x10000 where
  offsetDims := []
  collapsedSliceDims := [1]
  operandBatchingDims := [0]
  startIndicesBatchingDims := [0]
  startIndexMap := [1]
  indexVectorDim := 2
  sliceSizes := ![1, 1]
  wf := gather_S32x16_S32x10000x1_S32x10000_n_1_0_0_1_2_11_wf
def dot_S32x10000x257_S257x256_S32x10000x256_2_0_01_1_n_n : DotDims S32x10000x257 S257x256 S32x10000x256 where
  lhsContracting := [2]
  rhsContracting := [0]
  lhsNonContracting := [0, 1]
  rhsNonContracting := [1]
  lhsBatch := []
  rhsBatch := []
  wf := dot_S32x10000x257_S257x256_S32x10000x256_2_0_01_1_n_n_wf
def dot_S32x10000x256_S256x2_S32x10000x2_2_0_01_1_n_n : DotDims S32x10000x256 S256x2 S32x10000x2 where
  lhsContracting := [2]
  rhsContracting := [0]
  lhsNonContracting := [0, 1]
  rhsNonContracting := [1]
  lhsBatch := []
  rhsBatch := []
  wf := dot_S32x10000x256_S256x2_S32x10000x2_2_0_01_1_n_n_wf

class Facts : Prop extends Facts₀ where

variable [Facts]
-- ==== Proof.KernelFrame.lean ====
/-
  The frame of the word-level kernel: it runs to the end, and every argument array ends as it was launched.

  The kernel's one region has nine windows on a grid of ten points.  Windows 0 and 2 (the index words and the
  transposed embedding table, cut in blocks of 1024 agents) and window 8 (the result) do not tile their arrays: the
  last block overhangs, and the tail of its staging buffer holds words that name nothing.  The body multiplies whole
  1024-column blocks, tails included, and for an arbitrary float instance a product's column is not known to depend
  on the same column of its factor only.  So what the body leaves in the result's staging buffer is not named here:
  the result window is forgotten (its buffer is handed to the body at any contents and taken back at any contents),
  and the frame states only what it must: the input windows' arrays are never written, and the buffers no window
  stages are touched by nothing but the host lines, which write none of the arguments.
-/
import proofs.«422123_j35029753266434_3_alg».proof.Proof.Gen.Kernel.Frame
import proofs.«422123_j35029753266434_3_alg».proof.Proof.Gen.Kernel.Skeleton
import proofs.«422123_j35029753266434_3_alg».proof.Proof.Gen.Kernel.Loops
import proofs.«422123_j35029753266434_3_alg».proof.Proof.Gen.Kernel.Launch
import proofs.«422123_j35029753266434_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any nine whole staging buffers -/

set_option maxHeartbeats 2000000 in
/-- The body's triple.  On whole staging buffers, the eight inputs' at given contents and the result's at any, the
    body runs to its continuation with the inputs' buffers holding what they held (it only reads them) and the
    result's holding something: the rows the thirty-two trips of its loop stored over what was there, which nothing
    here names. -/
theorem kernelRun (c : Dev nD) (i : grid0.Coords)
    (arg1 : Memref sig .tc .vmem S32x1024 .i32) (harg1 : arg1.IsWhole)
    (arg2 : Memref sig .tc .vmem S32x16x1 .f32) (harg2 : arg2.IsWhole)
    (arg3 : Memref sig .tc .vmem S256x1024 .f32) (harg3 : arg3.IsWhole)
    (arg4 : Memref sig .tc .vmem S256x256 .f32) (harg4 : arg4.IsWhole)
    (arg5 : Memref sig .tc .vmem S256x1 .f32) (harg5 : arg5.IsWhole)
    (arg6 : Memref sig .tc .vmem S256x1 .f32) (harg6 : arg6.IsWhole)
    (arg7 : Memref sig .tc .vmem S2x256 .f32) (harg7 : arg7.IsWhole)
    (arg8 : Memref sig .tc .vmem S2x1 .f32) (harg8 : arg8.IsWhole)
    (arg9 : Memref sig .tc .vmem S32x2x1024 .f32) (harg9 : arg9.IsWhole)
    (x1 : Vec F S32x1024 .i32) (x2 : Vec F S32x16x1 .f32) (x3 : Vec F S256x1024 .f32) (x4 : Vec F S256x256 .f32)
    (x5 : Vec F S256x1 .f32) (x6 : Vec F S256x1 .f32) (x7 : Vec F S2x256 .f32) (x8 : Vec F S2x1 .f32) :
      ∀ (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7 ∗ owns (c : Thread nD τ) arg8 fullShare x8
            ∗ (∃ d, owns (c : Thread nD τ) arg9 fullShare d)
            ∗ (iprop(owns (c : Thread nD τ) arg1 fullShare x1 ∗ owns (c : Thread nD τ) arg2 fullShare x2
                ∗ owns (c : Thread nD τ) arg3 fullShare x3 ∗ owns (c : Thread nD τ) arg4 fullShare x4
                ∗ owns (c : Thread nD τ) arg5 fullShare x5 ∗ owns (c : Thread nD τ) arg6 fullShare x6
                ∗ owns (c : Thread nD τ) arg7 fullShare x7 ∗ owns (c : Thread nD τ) arg8 fullShare x8
                ∗ (∃ d, owns (c : Thread nD τ) arg9 fullShare d)) -∗ K ⟨⟩))
          ⊢ wp frame (wpE (defs₀ (F := F)) Variants.none c none) E
              (cc0__kernel i arg1 harg1 arg2 harg2 arg3 harg3 arg4 harg4 arg5 harg5 arg6 harg6 arg7 harg7 arg8 harg8 arg9 harg9) K := by
  intro E K
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  obtain rfl := harg7.eq_unread hf7; obtain rfl := harg8.eq_unread hf8
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _, _; isplitr; swap; · iexact H9
  ipureintro; rfl

/-! ## The proof data -/

/-- The window this proof does not name: the result's (window 8).  Nothing below reads what the body leaves there. -/
def forgets : Fin 9 → Bool := fun w => w.val == 8

/-- The buffer the host line after the region writes (the transposed result): the one buffer outside the windows'
    arrays of which the frame says nothing. -/
def T : Finset (Ref sig .tc) := {main_v11}

/-- The proof data of the region on core `c`.  The arrays are as the region finds them.  After the body at point `t`
    each uncut input's buffer holds its block (the body only reads it); the two clipped inputs' buffers hold their
    block on the part inside the array, and past the array's end a word chosen once and read by nothing (the
    obligation of a clipped window speaks of the inside part only); the result's buffer holds contents nothing
    names.  The invariant is the class's; nothing is owed; every share is full. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Classical.arbitrary _) (iblk m c 0 t)
    | ⟨1, _⟩ => iblk m c 1 t
    | ⟨2, _⟩ => win0_2.fill (grid0.coords t) (fun _ => Classical.arbitrary _) (iblk m c 2 t)
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) :
    (dats m 0 c).after 0 t = win0_0.fill (grid0.coords t) (fun _ => Classical.arbitrary _) (iblk m c 0 t) := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = win0_2.fill (grid0.coords t) (fun _ => Classical.arbitrary _) (iblk m c 2 t) := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- What the body finds.  The two clipped inputs are fetched at every point: the buffer holds the block on the part
    inside the array and, past it, whatever it held (`d`). -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_2 (c : Dev nD) (t : Fin cfg0.N) (d) :
    (dats m 0 c).before 2 t d = win0_2.fill (grid0.coords t) d (iblk m c 2 t) := by
  unfold Dat.before; rw [if_pos (fetch0_2 t)]; rfl
/-- The six uncut inputs' buffers hold their block at every point, fetched there or kept from the point before. -/
theorem before0_1 (c : Dev nD) (t : Fin cfg0.N) (d) : (dats m 0 c).before 1 t d = iblk m c 1 t :=
  before0_1_of m (dats m 0 c) (A_eq m c 1) (after0_1 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- What the body is called with at point `t`: the invariant, nothing owed, each input's current buffer at what the
    body finds there, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ X, owns (c : Thread nD τ) (st0_8 t) fullShare X))

/-- What it returns: the uncut inputs' buffers at their blocks, the clipped inputs' at their blocks on the part
    inside the array (past it, at something), the result's at something. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ (∃ d, owns (c : Thread nD τ) (st0_2 t) fullShare
        (win0_2.fill (grid0.coords t) d (win0_2.cut (grid0.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ X, owns (c : Thread nD τ) (st0_8 t) fullShare X))

/-- The body at any point.  Each input's buffer holds its block (a clipped one's filled out past the array's end
    with whatever the buffer held), so the triple applies at those contents; the body hands every input's buffer back
    as it found it, which for a clipped window is its block on the inside part, all its obligation asks; the
    invariant passes through unread and nothing is owed at either position. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7,
    win0_0.cut_fill, win0_2.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _
    (win0_0.fill (grid0.coords t) d0 (iblk m c 0 t)) (iblk m c 1 t) (win0_2.fill (grid0.coords t) d2 (iblk m c 2 t))
    (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexists d0; iexact H0
  isplitl [H1]; · iexact H1
  isplitl [H2]; · iexists d2; iexact H2
  isplitl [H3]; · iexact H3
  isplitl [H4]; · iexact H4
  isplitl [H5]; · iexact H5
  isplitl [H6]; · iexact H6
  isplitl [H7]; · iexact H7
  iexact H8

/-- The library's body obligation in its form for clipped windows, the result window forgotten, at every point. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

/-- The host line after the region writes the transposed result only. -/
theorem tail_writes : ∀ ops ∈ ([hostOps1] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  rw [Proc.devRef_injective _ hb]
  exact Finset.mem_singleton_self _

set_option backward.isDefEq.respectTransparency.types false in
/-- From any memory with zero counters, for any values: every weakly fair execution of the program on the TensorCores
    terminates, and in every final state each input window's array is related to its entry contents as the proof data
    say (for an input: equal), nothing is said of the result's array nor of the transposed result, and every other
    buffer no window stages holds what it held when the region was entered. -/
theorem run_main : θ_run defs (onTc (τ := τ) (main (F := F))) (s₀ m ρ)
    (Pipeline.RDat.FramePostR (cfgs 0) (fun c => (dats m 0 c).toRForget forgets) T (V m)) :=
  Pipeline.RDat.θ_run_frame_around_T cfgs (0 : Fin 1) launch0 defs₀ Variants.none (fun c => (dats m 0 c).toRForget forgets) T m ρ main
    (hbody := fun c => (body_obligation m c).toRForget)
    (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- THE FRAME: the program terminates and its seven argument arrays end as launched.  The index words' array is window
    0's, an input: the region never writes it, and no host line before the region does.  The six float arguments are
    staged by no window and written by no host line, before the region or after it. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Finset.mem_sdiff.mpr ⟨Pipeline.mem_restRefs_of main_arg0 (by decide) (by decide), by decide⟩)).trans (V_main_arg0 m c),
      (Pipeline.RDat.FramePostR.arr_in h c 0 rfl).trans ((A_eq m c 0).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩)
    (run_main m ρ)

end Cert.Kernel.Body

end
-- ==== Proof.BodyRun.lean ====
/-
  The kernel body at one grid point, as a function of what its nine staging buffers hold.

  The body loads six whole buffers (the embedding block, the two weight matrices and the three bias and
  weight columns) and then runs 32 trips; trip k loads row k of the index block and row k of the action
  table and stores one [1, 2, 1024] row, a pure function of those loads, at row k of the output buffer.
  So after the body the output buffer holds, at (b, o, n), the row function of trip b at (0, o, n), whatever
  it held before; the other eight buffers are unchanged.
-/
import proofs.«422123_j35029753266434_3_alg».proof.Proof.Gen.KernelIdeal.Frame
import proofs.«422123_j35029753266434_3_alg».proof.Proof.Gen.KernelIdeal.Skeleton
import proofs.«422123_j35029753266434_3_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix3)

variable {F : FTy → Type} [FloatOps F]

local notation "𝕄" => MT nD τ sig Unit (Elt F) ℕ (UR sig nD τ) ℕ

/-! ## The loop's trip count and row offsets -/

theorem trips_eq : k0_t1_loop.trips = 32 := by decide +kernel
theorem off1_eq : ∀ k : Fin k0_t1_loop.trips, k0_off1 k = ![k.val, 0] := by decide +kernel
theorem off2_eq : ∀ k : Fin k0_t1_loop.trips, k0_off2 k = ![k.val, 0, 0] := by decide +kernel
theorem off3_eq : ∀ k : Fin k0_t1_loop.trips, k0_off3 k = ![k.val, 0, 0] := by decide +kernel

/-! ## What the output buffer holds after the body -/

/-- The row trip `k` stores: the payload of row `k` of the index block and row `k` of the action table. -/
def outRow (x1 : Vec F S32x1024 .i32) (x2 : Vec F S32x16x1 .f32) (x3 : Vec F S256x1024 .f32) (x4 : Vec F S256x256 .f32) (x5 : Vec F S256x1 .f32) (x6 : Vec F S256x1 .f32) (x7 : Vec F S2x256 .f32) (x8 : Vec F S2x1 .f32) (k : Fin k0_t1_loop.trips) : FVec F S1x2x1024 .f32 :=
  k0_pay1 x3 x4 x6 x5 x7 x8 (View.ld x1 (Rect.unit (s := S32x1024) (k0_off1 k) S1x1024.size (k0_off1_inb k)))
    (View.ld x2 (Rect.unit (s := S32x16x1) (k0_off2 k) S1x16x1.size (k0_off2_inb k)))

/-- The whole output buffer after the 32 trips: row `b` is what trip `b` stored. -/
def outBuf (x1 : Vec F S32x1024 .i32) (x2 : Vec F S32x16x1 .f32) (x3 : Vec F S256x1024 .f32) (x4 : Vec F S256x256 .f32) (x5 : Vec F S256x1 .f32) (x6 : Vec F S256x1 .f32) (x7 : Vec F S2x256 .f32) (x8 : Vec F S2x1 .f32) : Vec F S32x2x1024 .f32 := fun j =>
  outRow x1 x2 x3 x4 x5 x6 x7 x8 ⟨(j 0).val, by rw [trips_eq]; exact (j 0).isLt⟩ (ix3 (n0 := 1) (n1 := 2) (n2 := 1024) 0 (j 1) (j 2))

/-- One trip writes one piece: the row rectangle at row `k` and the row payload over that trip's two loads. -/
theorem tripL_eq (c : Dev nD) (i : grid0.Coords) (arg1 : Memref sig .tc .vmem S32x1024 .i32) (harg1 : arg1.IsWhole) (arg2 : Memref sig .tc .vmem S32x16x1 .f32) (harg2 : arg2.IsWhole) (arg3 : Memref sig .tc .vmem S256x1024 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S2x256 .f32) (harg7 : arg7.IsWhole) (arg8 : Memref sig .tc .vmem S2x1 .f32) (harg8 : arg8.IsWhole) (arg9 : Memref sig .tc .vmem S32x2x1024 .f32) (harg9 : arg9.IsWhole) (v0 : Vec F S256x1024 .f32) (v2 : Vec F S256x256 .f32) (v4 : Vec F S256x1 .f32) (v12 : Vec F S256x1 .f32) (v15 : Vec F S2x256 .f32) (v18 : Vec F S2x1 .f32) (X1 : BufTy.Contents (Elt F) arg1.view.ty) (X2 : BufTy.Contents (Elt F) arg2.view.ty) (k : Fin k0_t1_loop.trips) :
    tripL_k0_t1 (F := F) Variants.none c none i arg1 harg1 arg2 harg2 arg3 harg3 arg4 harg4 arg5 harg5 arg6 harg6 arg7 harg7 arg8 harg8 arg9 harg9 v0 v2 v4 v12 v15 v18 X1 X2 k
      = [⟨Rect.unit (s := S32x2x1024) (k0_off3 k) S1x2x1024.size (k0_off3_inb k),
          k0_pay1 v0 v2 v4 v12 v15 v18 (View.readAt (Elt F) arg1.view (Rect.unit (s := S32x1024) (k0_off1 k) S1x1024.size (k0_off1_inb k)).toLoadRect X1)
            (View.readAt (Elt F) arg2.view (Rect.unit (s := S32x16x1) (k0_off2 k) S1x16x1.size (k0_off2_inb k)).toLoadRect X2)⟩] := by
  unfold tripL_k0_t1 trip_k0_t1; rfl

/-- After the trips before `n`, a row below `n` holds what its trip stored and a later row what it held. -/
theorem read_pb (c : Dev nD) (i : grid0.Coords) (arg1 : Memref sig .tc .vmem S32x1024 .i32) (harg1 : arg1.IsWhole) (arg2 : Memref sig .tc .vmem S32x16x1 .f32) (harg2 : arg2.IsWhole) (arg3 : Memref sig .tc .vmem S256x1024 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S2x256 .f32) (harg7 : arg7.IsWhole) (arg8 : Memref sig .tc .vmem S2x1 .f32) (harg8 : arg8.IsWhole) (arg9 : Memref sig .tc .vmem S32x2x1024 .f32) (harg9 : arg9.IsWhole) (x1 : Vec F S32x1024 .i32) (x2 : Vec F S32x16x1 .f32) (x3 : Vec F S256x1024 .f32) (x4 : Vec F S256x256 .f32) (x5 : Vec F S256x1 .f32) (x6 : Vec F S256x1 .f32) (x7 : Vec F S2x256 .f32) (x8 : Vec F S2x1 .f32) (f : BufTy.Contents (Elt F) arg9.view.ty) :
    ∀ (n : ℕ), n ≤ 32 → ∀ y : S32x2x1024.Idx,
      arg9.view.read (Elt F) (arg9.view.writes (Elt F) f (pb_k0_t1 (F := F) Variants.none c none i arg1 harg1 arg2 harg2 arg3 harg3 arg4 harg4 arg5 harg5 arg6 harg6 arg7 harg7 arg8 harg8 arg9 harg9 x3 x4 x6 x5 x7 x8 (harg1.unread x1) (harg2.unread x2) n)) y
        = if (y 0).val < n then outBuf x1 x2 x3 x4 x5 x6 x7 x8 y else arg9.view.read (Elt F) f y
  | 0, _, y => by rw [pb_k0_t1.eq_1, View.writes_nil, if_neg (Nat.not_lt_zero _)]
  | k + 1, hk, y => by
    have hkt : k < k0_t1_loop.trips := by rw [trips_eq]; omega
    have hs := pb_k0_t1_succ (F := F) Variants.none c none i arg1 harg1 arg2 harg2 arg3 harg3 arg4 harg4 arg5 harg5 arg6 harg6 arg7 harg7 arg8 harg8 arg9 harg9 x3 x4 x6 x5 x7 x8 (harg1.unread x1) (harg2.unread x2) ⟨k, hkt⟩
    rw [show (⟨k, hkt⟩ : Fin k0_t1_loop.trips).val + 1 = k + 1 from rfl] at hs
    rw [hs, tripL_eq, List.singleton_append, View.writes_cons]
    have ih := read_pb c i arg1 harg1 arg2 harg2 arg3 harg3 arg4 harg4 arg5 harg5 arg6 harg6 arg7 harg7 arg8 harg8 arg9 harg9 x1 x2 x3 x4 x5 x6 x7 x8 f k (by omega) y
    by_cases hy : (y 0).val = k
    · -- the row this trip stores
      have hyk : (y 0).val < k + 1 := by omega
      rw [if_pos hyk]
      have he : y = (Rect.unit (s := S32x2x1024) (k0_off3 ⟨k, hkt⟩) S1x2x1024.size (k0_off3_inb ⟨k, hkt⟩)).emb (ix3 (n0 := 1) (n1 := 2) (n2 := 1024) 0 (y 1) (y 2)) := by
        have ho := off3_eq ⟨k, hkt⟩
        funext a; apply Fin.ext
        match a with
        | ⟨0, _⟩ => show (y 0 : ℕ) = k0_off3 ⟨k, hkt⟩ 0 + 1 * 0; rw [ho]; show (y 0 : ℕ) = k + 1 * 0; omega
        | ⟨1, _⟩ => show (y 1 : ℕ) = k0_off3 ⟨k, hkt⟩ 1 + 1 * (y 1 : ℕ); rw [ho]; show (y 1 : ℕ) = 0 + 1 * (y 1 : ℕ); omega
        | ⟨2, _⟩ => show (y 2 : ℕ) = k0_off3 ⟨k, hkt⟩ 2 + 1 * (y 2 : ℕ); rw [ho]; show (y 2 : ℕ) = 0 + 1 * (y 2 : ℕ); omega
      conv_lhs => rw [he]
      rw [View.read_slice_write_emb _ _ _ (Finset.mem_univ _)]
      unfold outBuf outRow
      rw [View.readAt_eq_ld, View.readAt_eq_ld, harg1.read_unread, harg2.read_unread]
      have hkk : (⟨(y 0).val, by rw [trips_eq]; exact (y 0).isLt⟩ : Fin k0_t1_loop.trips) = ⟨k, hkt⟩ := Fin.ext hy
      rw [hkk]
    · have hyn : y ∉ Finset.univ.map (Rect.unit (s := S32x2x1024) (k0_off3 ⟨k, hkt⟩) S1x2x1024.size (k0_off3_inb ⟨k, hkt⟩)).emb := by
        rw [Rect.map_emb_univ, Rect.mem_set_unit]
        intro h
        have h0 := h 0
        rw [off3_eq] at h0
        have h0' : k ≤ (y 0 : ℕ) ∧ (y 0 : ℕ) < k + 1 := h0
        omega
      rw [View.read_slice_write_of_not_mem _ _ _ _ hyn, ih]
      by_cases hlt : (y 0).val < k
      · rw [if_pos hlt, if_pos (by omega)]
      · rw [if_neg hlt, if_neg (by omega)]

/-- A load of a whole buffer reads its contents. -/
theorem whole_load {S : Shape} {e : EltTy} {sp : Space} (M : Memref sig .tc sp S e) (hM : M.IsWhole) (x : S.Idx → Elt F e)
    {off : Fin S.rank → ℕ} (hz : off = fun _ => 0) (inb : ∀ a, off a + S.size a ≤ S.size a) :
    View.readAt (Elt F) M.view (Rect.unit off S.size inb).toLoadRect (hM.unread x) = x := by
  rw [View.readAt_eq_ld, hM.read_unread, View.ld_unit_zero hz]

end Cert.KernelIdeal.Body
end
-- ==== Proof.BodyTriple.lean ====
/-
  The body's triple: run from the nine staging buffers at given contents, the body returns the eight input
  buffers as they were and the output buffer holding, row by row, what the 32 trips stored.
-/
import proofs.«422123_j35029753266434_3_alg».proof.Proof.BodyRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → ℕ) = fun _ => 0 := funext fun a => by fin_cases a <;> rfl

set_option maxHeartbeats 2000000 in
/-- On whole staging buffers, the inputs at `x1 … x8` and the output at anything: the body runs to the
    continuation holding the inputs as they were and the output at `outBuf x1 … x8`. -/
theorem kernelRun (c : Dev nD) (i : grid0.Coords) (arg1 : Memref sig .tc .vmem S32x1024 .i32) (harg1 : arg1.IsWhole) (arg2 : Memref sig .tc .vmem S32x16x1 .f32) (harg2 : arg2.IsWhole) (arg3 : Memref sig .tc .vmem S256x1024 .f32) (harg3 : arg3.IsWhole) (arg4 : Memref sig .tc .vmem S256x256 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S2x256 .f32) (harg7 : arg7.IsWhole) (arg8 : Memref sig .tc .vmem S2x1 .f32) (harg8 : arg8.IsWhole) (arg9 : Memref sig .tc .vmem S32x2x1024 .f32) (harg9 : arg9.IsWhole)
    (x1 : Vec F S32x1024 .i32) (x2 : Vec F S32x16x1 .f32) (x3 : Vec F S256x1024 .f32) (x4 : Vec F S256x256 .f32) (x5 : Vec F S256x1 .f32) (x6 : Vec F S256x1 .f32) (x7 : Vec F S2x256 .f32) (x8 : Vec F S2x1 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outBuf x1 x2 x3 x4 x5 x6 x7 x8)) -∗ K ⟨⟩))
          ⊢ wp frame (wpE (defs₀ (F := F)) Variants.none c none) E (cc0__kernel i arg1 harg1 arg2 harg2 arg3 harg3 arg4 harg4 arg5 harg5 arg6 harg6 arg7 harg7 arg8 harg8 arg9 harg9) K := by
  intro E K
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr; swap; · iexact H9
  ipureintro
  funext y
  rw [whole_load arg3 harg3 x3 hz2, whole_load arg4 harg4 x4 hz2, whole_load arg6 harg6 x6 hz2, whole_load arg5 harg5 x5 hz2,
    whole_load arg7 harg7 x7 hz2, whole_load arg8 harg8 x8 hz2]
  have h32 : Scf.trips k0_t1_loop.lb k0_t1_loop.ub k0_t1_loop.st = 32 := trips_eq
  rw [h32, read_pb c i arg1 harg1 arg2 harg2 arg3 harg3 arg4 harg4 arg5 harg5 arg6 harg6 arg7 harg7 arg8 harg8 arg9 harg9 x1 x2 x3 x4 x5 x6 x7 x8 f9 32 le_rfl y, if_pos (show ((y 0 : Fin 32) : ℕ) < 32 from (y 0).isLt)]

end Cert.KernelIdeal.Body
end
-- ==== Proof.KGeom.lean ====
/-
  Where each window's block sits in its array: the block index at grid point t and the part of the block that
  lies inside the array.  Windows 0 (the index words), 2 (the transposed embedding) and 8 (the result) move along
  the agent axis in steps of 1024, the last step holding only 10000 - 9·1024 = 784 agents; the other six windows
  are their whole arrays at every point.
-/
import proofs.«422123_j35029753266434_3_alg».proof.Proof.BodyRun

set_option maxRecDepth 16384

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable {F : FTy → Type} [FloatOps F]
variable (m : (ℓ : Loc nD τ sig) → Buf (Elt F) ℓ)

/-- The moving windows' block index at point `t` is `t` on the agent axis and 0 elsewhere. -/
theorem idx_moving : ∀ t : Fin cfg0.N, (win0_0.index t 0 = 0 ∧ win0_0.index t 1 = t.val) ∧ (win0_2.index t 0 = 0 ∧ win0_2.index t 1 = t.val)
    ∧ (win0_8.index t 0 = 0 ∧ win0_8.index t 1 = 0 ∧ win0_8.index t 2 = t.val) :=
  (by decide +kernel : ∀ t : Fin grid0.N, _)

/-- The other windows' block index is 0 on every axis. -/
theorem idx_fixed : ∀ t : Fin cfg0.N, (∀ a, win0_1.index t a = 0) ∧ (∀ a, win0_3.index t a = 0) ∧ (∀ a, win0_4.index t a = 0)
    ∧ (∀ a, win0_5.index t a = 0) ∧ (∀ a, win0_6.index t a = 0) ∧ (∀ a, win0_7.index t a = 0) :=
  (by decide +kernel : ∀ t : Fin grid0.N, _)

/-- The part of a moving block inside its array: all rows, and on the agent axis the agents left. -/
theorem xsize_moving : ∀ t : Fin cfg0.N,
    (win0_8.xsize (grid0.coords t) 0 = 32 ∧ win0_8.xsize (grid0.coords t) 1 = 2 ∧ win0_8.xsize (grid0.coords t) 2 = min 1024 (10000 - t.val * 1024))
    ∧ (win0_0.xsize (grid0.coords t) 0 = 32 ∧ win0_0.xsize (grid0.coords t) 1 = min 1024 (10000 - t.val * 1024))
    ∧ (win0_2.xsize (grid0.coords t) 0 = 256 ∧ win0_2.xsize (grid0.coords t) 1 = min 1024 (10000 - t.val * 1024)) :=
  (by decide +kernel : ∀ t : Fin grid0.N, _)

theorem N_eq : cfg0.N = 10 := N_0

/-- Window 0's block at (b, n) is the index array at (b, 1024 t + n). -/
theorem iblk0_apply (c : Dev nD) (t : Fin cfg0.N) (y : ((cfg0.win 0).xblock (cfg0.grid.coords t)).Idx) (j : S32x10000.Idx)
    (h0 : (j 0 : ℕ) = y 0) (h1 : (j 1 : ℕ) = t.val * 1024 + y 1) :
    iblk m c 0 t y = (V m c main_arg1 : S32x10000.Idx → Elt F .i32) j := by
  have hi := (idx_moving t).1
  show (V m c main_arg1 : S32x10000.Idx → Elt F .i32) (((cfg0.win 0).blk t).view.emb y) = _
  congr 1; funext a; apply Fin.ext
  match a with
  | ⟨0, _⟩ => show win0_0.index t 0 * 32 + 1 * (y 0).val = (j 0 : ℕ); rw [hi.1]; omega
  | ⟨1, _⟩ => show win0_0.index t 1 * 1024 + 1 * (y 1).val = (j 1 : ℕ); rw [hi.2]; omega

/-- Window 2's block at (e, n) is the transposed embedding at (e, 1024 t + n). -/
theorem iblk2_apply (c : Dev nD) (t : Fin cfg0.N) (y : ((cfg0.win 2).xblock (cfg0.grid.coords t)).Idx) (j : S256x10000.Idx)
    (h0 : (j 0 : ℕ) = y 0) (h1 : (j 1 : ℕ) = t.val * 1024 + y 1) :
    iblk m c 2 t y = (V m c main_v1 : S256x10000.Idx → Elt F .f32) j := by
  have hi := (idx_moving t).2.1
  show (V m c main_v1 : S256x10000.Idx → Elt F .f32) (((cfg0.win 2).blk t).view.emb y) = _
  congr 1; funext a; apply Fin.ext
  match a with
  | ⟨0, _⟩ => show win0_2.index t 0 * 256 + 1 * (y 0).val = (j 0 : ℕ); rw [hi.1]; omega
  | ⟨1, _⟩ => show win0_2.index t 1 * 1024 + 1 * (y 1).val = (j 1 : ℕ); rw [hi.2]; omega

/-- A fixed window's block is its whole array. -/
theorem iblk1_eq (c : Dev nD) (t : Fin cfg0.N) : iblk m c 1 t = (V m c main_v0 : S32x16x1.Idx → Elt F .f32) := by
  have hi := (idx_fixed t).1
  funext y
  show (V m c main_v0 : S32x16x1.Idx → Elt F .f32) (((cfg0.win 1).blk t).view.emb y) = _
  congr 1; funext a; apply Fin.ext
  match a with
  | ⟨0, _⟩ => show win0_1.index t 0 * 32 + 1 * (y 0).val = (y 0 : ℕ); rw [hi]; omega
  | ⟨1, _⟩ => show win0_1.index t 1 * 16 + 1 * (y 1).val = (y 1 : ℕ); rw [hi]; omega
  | ⟨2, _⟩ => show win0_1.index t 2 * 1 + 1 * (y 2).val = (y 2 : ℕ); rw [hi]; omega
theorem iblk3_eq (c : Dev nD) (t : Fin cfg0.N) : iblk m c 3 t = (V m c main_v3 : S256x256.Idx → Elt F .f32) := by
  have hi := (idx_fixed t).2.1
  funext y
  show (V m c main_v3 : S256x256.Idx → Elt F .f32) (((cfg0.win 3).blk t).view.emb y) = _
  congr 1; funext a; apply Fin.ext
  match a with
  | ⟨0, _⟩ => show win0_3.index t 0 * 256 + 1 * (y 0).val = (y 0 : ℕ); rw [hi]; omega
  | ⟨1, _⟩ => show win0_3.index t 1 * 256 + 1 * (y 1).val = (y 1 : ℕ); rw [hi]; omega
theorem iblk4_eq (c : Dev nD) (t : Fin cfg0.N) : iblk m c 4 t = (V m c main_v6 : S256x1.Idx → Elt F .f32) := by
  have hi := (idx_fixed t).2.2.1
  funext y
  show (V m c main_v6 : S256x1.Idx → Elt F .f32) (((cfg0.win 4).blk t).view.emb y) = _
  congr 1; funext a; apply Fin.ext
  match a with
  | ⟨0, _⟩ => show win0_4.index t 0 * 256 + 1 * (y 0).val = (y 0 : ℕ); rw [hi]; omega
  | ⟨1, _⟩ => show win0_4.index t 1 * 1 + 1 * (y 1).val = (y 1 : ℕ); rw [hi]; omega
theorem iblk5_eq (c : Dev nD) (t : Fin cfg0.N) : iblk m c 5 t = (V m c main_v7 : S256x1.Idx → Elt F .f32) := by
  have hi := (idx_fixed t).2.2.2.1
  funext y
  show (V m c main_v7 : S256x1.Idx → Elt F .f32) (((cfg0.win 5).blk t).view.emb y) = _
  congr 1; funext a; apply Fin.ext
  match a with
  | ⟨0, _⟩ => show win0_5.index t 0 * 256 + 1 * (y 0).val = (y 0 : ℕ); rw [hi]; omega
  | ⟨1, _⟩ => show win0_5.index t 1 * 1 + 1 * (y 1).val = (y 1 : ℕ); rw [hi]; omega
theorem iblk6_eq (c : Dev nD) (t : Fin cfg0.N) : iblk m c 6 t = (V m c main_v8 : S2x256.Idx → Elt F .f32) := by
  have hi := (idx_fixed t).2.2.2.2.1
  funext y
  show (V m c main_v8 : S2x256.Idx → Elt F .f32) (((cfg0.win 6).blk t).view.emb y) = _
  congr 1; funext a; apply Fin.ext
  match a with
  | ⟨0, _⟩ => show win0_6.index t 0 * 2 + 1 * (y 0).val = (y 0 : ℕ); rw [hi]; omega
  | ⟨1, _⟩ => show win0_6.index t 1 * 256 + 1 * (y 1).val = (y 1 : ℕ); rw [hi]; omega
theorem iblk7_eq (c : Dev nD) (t : Fin cfg0.N) : iblk m c 7 t = (V m c main_v9 : S2x1.Idx → Elt F .f32) := by
  have hi := (idx_fixed t).2.2.2.2.2
  funext y
  show (V m c main_v9 : S2x1.Idx → Elt F .f32) (((cfg0.win 7).blk t).view.emb y) = _
  congr 1; funext a; apply Fin.ext
  match a with
  | ⟨0, _⟩ => show win0_7.index t 0 * 2 + 1 * (y 0).val = (y 0 : ℕ); rw [hi]; omega
  | ⟨1, _⟩ => show win0_7.index t 1 * 1 + 1 * (y 1).val = (y 1 : ℕ); rw [hi]; omega

end Cert.KernelIdeal.Body
end
-- ==== Proof.Payload.lean ====
/-
  One trip's stored row, element by element, at the extended reals.

  For an output coordinate o and a lane n the body stores
      Σ_h W2ᵀ[o,h] · max( (Σ_e W1ᵀ[h,e] · embᵀ[e,n] + b1[h]) + w0[h] · a(n), 0 ) + b2[o],
  where a(n) is the entry of the 16-entry action table that lane n's index word names, and zero when the word names
  none. The body forms a(n) as a sum over the 16 sublanes of an indicator (1 where the sublane counter equals the
  index word, else 0) times the table column; on the extended reals that sum has at most one nonzero term. The two
  matrix products contract the left operand's second axis with the right operand's first into a zero accumulator, and
  every narrowing of format is the identity on the extended reals. The lemmas below read each operation of the body at
  literal coordinates; `pay_apply` chains them.
-/
import proofs.«422123_j35029753266434_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KPay

open Cert.KernelIdeal Cert.KernelIdeal.Gen Idealize.ShloMosaic Idealize.ShloMosaic.ValueIdx

/-! ## Layout operations of the body, read at literal coordinates -/

section Layout
variable {α : Type}

/-- A column [256,1] broadcast along the lanes reads its row's entry. -/
theorem bcast_col256 (c : S256x1.Idx → α) (hb : S256x1.Broadcasts S256x1024) (p : Fin 256) (q : Fin 1024) :
    broadcastTo S256x1024 c hb (ix2 p q) = c (ix2 p 0) :=
  broadcastTo_apply c hb (ix2 p q) (ix2 p 0) fun a => by
    match a with
    | ⟨0, _⟩ => rfl
    | ⟨1, _⟩ => rfl

/-- A column [2,1] broadcast along the lanes reads its row's entry. -/
theorem bcast_col2 (c : S2x1.Idx → α) (hb : S2x1.Broadcasts S2x1024) (p : Fin 2) (q : Fin 1024) :
    broadcastTo S2x1024 c hb (ix2 p q) = c (ix2 p 0) :=
  broadcastTo_apply c hb (ix2 p q) (ix2 p 0) fun a => by
    match a with
    | ⟨0, _⟩ => rfl
    | ⟨1, _⟩ => rfl

/-- A column [16,1] broadcast along the lanes reads its row's entry. -/
theorem bcast_col16 (c : S16x1.Idx → α) (hb : S16x1.Broadcasts S16x1024) (p : Fin 16) (q : Fin 1024) :
    broadcastTo S16x1024 c hb (ix2 p q) = c (ix2 p 0) :=
  broadcastTo_apply c hb (ix2 p q) (ix2 p 0) fun a => by
    match a with
    | ⟨0, _⟩ => rfl
    | ⟨1, _⟩ => rfl

/-- A row [1,1024] broadcast down 256 sublanes reads its lane's entry. -/
theorem bcast_row256 (r : S1x1024.Idx → α) (hb : S1x1024.Broadcasts S256x1024) (p : Fin 256) (q : Fin 1024) :
    broadcastTo S256x1024 r hb (ix2 p q) = r (ix2 0 q) :=
  broadcastTo_apply r hb (ix2 p q) (ix2 0 q) fun a => by
    match a with
    | ⟨0, _⟩ => rfl
    | ⟨1, _⟩ => rfl

/-- A row [1,1024] broadcast down 16 sublanes reads its lane's entry. -/
theorem bcast_row16 (r : S1x1024.Idx → α) (hb : S1x1024.Broadcasts S16x1024) (p : Fin 16) (q : Fin 1024) :
    broadcastTo S16x1024 r hb (ix2 p q) = r (ix2 0 q) :=
  broadcastTo_apply r hb (ix2 p q) (ix2 0 q) fun a => by
    match a with
    | ⟨0, _⟩ => rfl
    | ⟨1, _⟩ => rfl

/-- The result [2,1024] stored as a [1,2,1024] block reads (0, o, n) at (o, n). -/
theorem cast_out (x : S2x1024.Idx → α) (hc : S2x1024.ShapeCasts S1x2x1024) (o : Fin 2) (n : Fin 1024) :
    shapeCast S1x2x1024 x hc (ix3 0 o n) = x (ix2 o n) := by
  refine (shapeCast_addUnit_apply (![2, 1024]) x hc (ix3 0 o n)).trans (congrArg x ?_)
  funext a
  match a with
  | ⟨0, _⟩ => rfl
  | ⟨1, _⟩ => rfl

/-- The lane vector [1024] viewed as a row [1,1024] reads (0, n) at n. -/
theorem cast_row (x : S1024.Idx → α) (hc : S1024.ShapeCasts S1x1024) (n : Fin 1024) :
    shapeCast S1x1024 x hc (ix2 0 n) = x (ix1 n) := by
  refine (shapeCast_addUnit_apply (![1024]) x hc (ix2 0 n)).trans (congrArg x ?_)
  funext a
  match a with
  | ⟨0, _⟩ => rfl

/-- The table row [1,16,1] viewed as a column [16,1] reads (0, a, 0) at (a, 0). -/
theorem cast_table (x : S1x16x1.Idx → α) (hc : S1x16x1.ShapeCasts S16x1) (a : Fin 16) :
    shapeCast S16x1 x hc (ix2 a 0) = x (ix3 0 a 0) := by
  refine (shapeCast_dropUnit_apply (![16, 1]) x hc (ix2 a 0)).trans (congrArg x ?_)
  funext b
  match b with
  | ⟨0, _⟩ => rfl
  | ⟨1, _⟩ => rfl
  | ⟨2, _⟩ => rfl

end Layout

/-! ## Words and constants -/

/-- The bf16 pattern of zero is the extended real zero. -/
theorem ofBits_zero_bf16 : Ideal.ofBits .bf16 0x0000#16 = 0 := by simp [Ideal.ofBits, Ideal.ieee]

/-- A 32-bit word equals the word of a number below 16 exactly when its value is that number. -/
theorem word_eq_iff (w : BitVec 32) (a : Fin 16) : w = BitVec.ofNat 32 a.val ↔ w.toNat = a.val := by
  have ha : a.val % 2 ^ 32 = a.val := Nat.mod_eq_of_lt (by have := a.isLt; omega)
  constructor
  · intro h; rw [h, BitVec.toNat_ofNat, ha]
  · intro h; apply BitVec.eq_of_toNat_eq; rw [BitVec.toNat_ofNat, ha, h]

/-- The indicator the kernel builds — compare for equality, widen the bit, convert to a float — is 1 where the word is
    the coordinate and 0 elsewhere. -/
theorem onehot (w : BitVec 32) (a : Fin 16) :
    (FloatOps.sitofp (F := Ideal) .f32 ((IntOp.cmpi .eq w (BitVec.ofNat 32 a.val)).setWidth 32) : EReal)
      = if w.toNat = a.val then 1 else 0 := by
  by_cases h : w.toNat = a.val
  · rw [if_pos h, (word_eq_iff w a).mpr h]
    show (((((IntOp.cmpi .eq (BitVec.ofNat 32 a.val) (BitVec.ofNat 32 a.val)).setWidth 32).toInt : ℝ)) : EReal) = 1
    simp [IntOp.cmpi]
  · rw [if_neg h]
    have hne : ¬ w = BitVec.ofNat 32 a.val := fun e => h ((word_eq_iff w a).mp e)
    have hb : (w == BitVec.ofNat 32 a.val) = false := beq_eq_false_iff_ne.mpr hne
    show (((((IntOp.cmpi .eq w (BitVec.ofNat 32 a.val)).setWidth 32).toInt : ℝ)) : EReal) = 0
    simp [IntOp.cmpi, hb]

/-- Summing the indicator times a table over the 16 coordinates picks the entry the word names, or nothing. -/
theorem sum_onehot (w : BitVec 32) (T : Fin 16 → EReal) :
    (∑ a : Fin 16, (if w.toNat = a.val then (1 : EReal) else 0) * T a)
      = if hw : w.toNat < 16 then T ⟨w.toNat, hw⟩ else 0 := by
  by_cases hw : w.toNat < 16
  · rw [dif_pos hw, Finset.sum_eq_single (⟨w.toNat, hw⟩ : Fin 16)]
    · rw [if_pos rfl, one_mul]
    · intro b _ hb
      rw [if_neg (fun h => hb (Fin.ext h.symm)), zero_mul]
    · intro h; exact absurd (Finset.mem_univ _) h
  · rw [dif_neg hw]
    refine Finset.sum_eq_zero fun a _ => ?_
    rw [if_neg (fun (h : w.toNat = a.val) => hw (by rw [h]; exact a.isLt)), zero_mul]

/-! ## The two contractions, read at an index

Each matrix product contracts the left operand's axis 1 with the right operand's axis 0 into a zero accumulator, so at
(p, q) it is the sum over the contracted coordinate e of left (p, e) times right (e, q). -/

theorem lhs1_0 (i : S256x1024.Idx) (q : dot_S256x256_S256x1024_S256x1024_1_0_0_1_n_n.contr.Idx) :
    (dot_S256x256_S256x1024_S256x1024_1_0_0_1_n_n.lhsIdx i q 0).val = (i 0).val := by
  unfold DotDims.lhsIdx
  rw [dif_neg (show ¬(0 : Fin S256x256.rank) ∈ dot_S256x256_S256x1024_S256x1024_1_0_0_1_n_n.lhsBatch by decide), dif_pos (show (0 : Fin S256x256.rank) ∈ dot_S256x256_S256x1024_S256x1024_1_0_0_1_n_n.lhsNonContracting by decide)]
  rfl
theorem lhs1_1 (i : S256x1024.Idx) (q : dot_S256x256_S256x1024_S256x1024_1_0_0_1_n_n.contr.Idx) :
    (dot_S256x256_S256x1024_S256x1024_1_0_0_1_n_n.lhsIdx i q 1).val = (q ⟨0, by decide⟩).val :=
  dot_S256x256_S256x1024_S256x1024_1_0_0_1_n_n.lhsIdx_val_of_single rfl i q
theorem rhs1_0 (i : S256x1024.Idx) (q : dot_S256x256_S256x1024_S256x1024_1_0_0_1_n_n.contr.Idx) :
    (dot_S256x256_S256x1024_S256x1024_1_0_0_1_n_n.rhsIdx i q 0).val = (q ⟨0, by decide⟩).val :=
  dot_S256x256_S256x1024_S256x1024_1_0_0_1_n_n.rhsIdx_val_of_single rfl i q
theorem rhs1_1 (i : S256x1024.Idx) (q : dot_S256x256_S256x1024_S256x1024_1_0_0_1_n_n.contr.Idx) :
    (dot_S256x256_S256x1024_S256x1024_1_0_0_1_n_n.rhsIdx i q 1).val = (i 1).val := by
  unfold DotDims.rhsIdx
  rw [dif_neg (show ¬(1 : Fin S256x1024.rank) ∈ dot_S256x256_S256x1024_S256x1024_1_0_0_1_n_n.rhsBatch by decide), dif_pos (show (1 : Fin S256x1024.rank) ∈ dot_S256x256_S256x1024_S256x1024_1_0_0_1_n_n.rhsNonContracting by decide)]
  rfl

/-- The first layer's product at (p, q): the sum over the 256 embedding coordinates. -/
theorem mm1_apply {φ₁ φ₂ : FTy} (A : FVec Ideal S256x256 φ₁) (B : FVec Ideal S256x1024 φ₂) (p : Fin 256) (q : Fin 1024) :
    matmul dot_S256x256_S256x1024_S256x1024_1_0_0_1_n_n none A B (constant (F := Ideal) S256x1024 .f32 0x00000000#32) (ix2 p q)
      = ∑ e : Fin 256, A (ix2 p e) * B (ix2 e q) := by
  simp only [matmul]
  rw [Ideal.matmul_constant_zero_apply, ← Equiv.sum_comp (contrEquiv1 dot_S256x256_S256x1024_S256x1024_1_0_0_1_n_n 256 rfl rfl).symm]
  refine Finset.sum_congr rfl fun k _ => ?_
  have hk := contrEquiv1_symm_val dot_S256x256_S256x1024_S256x1024_1_0_0_1_n_n 256 rfl rfl k
  have el : dot_S256x256_S256x1024_S256x1024_1_0_0_1_n_n.lhsIdx (ix2 p q) ((contrEquiv1 dot_S256x256_S256x1024_S256x1024_1_0_0_1_n_n 256 rfl rfl).symm k) = ix2 p k := funext fun a => Fin.ext (by
    match a with
    | ⟨0, _⟩ => exact lhs1_0 _ _
    | ⟨1, _⟩ => exact (lhs1_1 _ _).trans hk)
  have er : dot_S256x256_S256x1024_S256x1024_1_0_0_1_n_n.rhsIdx (ix2 p q) ((contrEquiv1 dot_S256x256_S256x1024_S256x1024_1_0_0_1_n_n 256 rfl rfl).symm k) = ix2 k q := funext fun a => Fin.ext (by
    match a with
    | ⟨0, _⟩ => exact (rhs1_0 _ _).trans hk
    | ⟨1, _⟩ => exact rhs1_1 _ _)
  rw [el, er]

theorem lhs2_0 (i : S2x1024.Idx) (q : dot_S2x256_S256x1024_S2x1024_1_0_0_1_n_n.contr.Idx) :
    (dot_S2x256_S256x1024_S2x1024_1_0_0_1_n_n.lhsIdx i q 0).val = (i 0).val := by
  unfold DotDims.lhsIdx
  rw [dif_neg (show ¬(0 : Fin S2x256.rank) ∈ dot_S2x256_S256x1024_S2x1024_1_0_0_1_n_n.lhsBatch by decide), dif_pos (show (0 : Fin S2x256.rank) ∈ dot_S2x256_S256x1024_S2x1024_1_0_0_1_n_n.lhsNonContracting by decide)]
  rfl
theorem lhs2_1 (i : S2x1024.Idx) (q : dot_S2x256_S256x1024_S2x1024_1_0_0_1_n_n.contr.Idx) :
    (dot_S2x256_S256x1024_S2x1024_1_0_0_1_n_n.lhsIdx i q 1).val = (q ⟨0, by decide⟩).val :=
  dot_S2x256_S256x1024_S2x1024_1_0_0_1_n_n.lhsIdx_val_of_single rfl i q
theorem rhs2_0 (i : S2x1024.Idx) (q : dot_S2x256_S256x1024_S2x1024_1_0_0_1_n_n.contr.Idx) :
    (dot_S2x256_S256x1024_S2x1024_1_0_0_1_n_n.rhsIdx i q 0).val = (q ⟨0, by decide⟩).val :=
  dot_S2x256_S256x1024_S2x1024_1_0_0_1_n_n.rhsIdx_val_of_single rfl i q
theorem rhs2_1 (i : S2x1024.Idx) (q : dot_S2x256_S256x1024_S2x1024_1_0_0_1_n_n.contr.Idx) :
    (dot_S2x256_S256x1024_S2x1024_1_0_0_1_n_n.rhsIdx i q 1).val = (i 1).val := by
  unfold DotDims.rhsIdx
  rw [dif_neg (show ¬(1 : Fin S256x1024.rank) ∈ dot_S2x256_S256x1024_S2x1024_1_0_0_1_n_n.rhsBatch by decide), dif_pos (show (1 : Fin S256x1024.rank) ∈ dot_S2x256_S256x1024_S2x1024_1_0_0_1_n_n.rhsNonContracting by decide)]
  rfl

/-- The second layer's product at (p, q): the sum over the 256 hidden coordinates. -/
theorem mm2_apply {φ₁ φ₂ : FTy} (A : FVec Ideal S2x256 φ₁) (B : FVec Ideal S256x1024 φ₂) (p : Fin 2) (q : Fin 1024) :
    matmul dot_S2x256_S256x1024_S2x1024_1_0_0_1_n_n none A B (constant (F := Ideal) S2x1024 .f32 0x00000000#32) (ix2 p q)
      = ∑ e : Fin 256, A (ix2 p e) * B (ix2 e q) := by
  simp only [matmul]
  rw [Ideal.matmul_constant_zero_apply, ← Equiv.sum_comp (contrEquiv1 dot_S2x256_S256x1024_S2x1024_1_0_0_1_n_n 256 rfl rfl).symm]
  refine Finset.sum_congr rfl fun k _ => ?_
  have hk := contrEquiv1_symm_val dot_S2x256_S256x1024_S2x1024_1_0_0_1_n_n 256 rfl rfl k
  have el : dot_S2x256_S256x1024_S2x1024_1_0_0_1_n_n.lhsIdx (ix2 p q) ((contrEquiv1 dot_S2x256_S256x1024_S2x1024_1_0_0_1_n_n 256 rfl rfl).symm k) = ix2 p k := funext fun a => Fin.ext (by
    match a with
    | ⟨0, _⟩ => exact lhs2_0 _ _
    | ⟨1, _⟩ => exact (lhs2_1 _ _).trans hk)
  have er : dot_S2x256_S256x1024_S2x1024_1_0_0_1_n_n.rhsIdx (ix2 p q) ((contrEquiv1 dot_S2x256_S256x1024_S2x1024_1_0_0_1_n_n 256 rfl rfl).symm k) = ix2 k q := funext fun a => Fin.ext (by
    match a with
    | ⟨0, _⟩ => exact (rhs2_0 _ _).trans hk
    | ⟨1, _⟩ => exact rhs2_1 _ _)
  rw [el, er]

/-! ## The gathered action at a lane -/

/-- An integer comparison at an index compares the elements. -/
theorem cmpi_apply {s : Shape} {w : Nat} (p : CmpIPredicate) (x y : IVec s w) (i : s.Idx) :
    cmpi p x y i = IntOp.cmpi p (x i) (y i) := rfl

/-- The sublane counter at (a, n) is the word of a. -/
theorem iota_at (hi : S16x1024.Iotas .tc 32 [0]) (a : Fin 16) (n : Fin 1024) :
    iota .tc S16x1024 32 [0] hi (ix2 a n) = BitVec.ofNat 32 a.val :=
  iota_single_apply .tc S16x1024 32 0 hi (ix2 a n)

/-- The index the lane sum reads for lane n and sublane k is (k, n). -/
theorem lift_eq (hr : S16x1024.Reduces [0] S1024) (n : Fin 1024) (k : Fin 16) :
    hr.lift (ix1 n) k = ix2 k n := by
  funext c
  refine Fin.ext ?_
  match c with
  | ⟨0, _⟩ => rfl
  | ⟨1, _⟩ => rfl

/-- The sum over the 16 sublanes at lane n. -/
theorem lane_sum (src : FVec Ideal S16x1024 .f32) (hr : S16x1024.Reduces [0] S1024) (hφ : FKind.Formats .f32)
    (hacc : (0x00000000#32 : BitVec 32) = 0x00000000#32) (n : Fin 1024) :
    multiReduction (F := Ideal) .add [0] S1024 src 0x00000000#32 hr hφ hacc (ix1 n) = ∑ a : Fin 16, src (ix2 a n) := by
  refine (Ideal.multiReduction_add_single src 0x00000000#32 hr hφ hacc (ix1 n)).trans ?_
  exact Finset.sum_congr rfl fun a _ => congrArg src (lift_eq hr n a)

/-- The indicator at (a, n): 1 where the lane's index word is a, else 0. -/
theorem onehot_at (v25 : IVec S1x1024 32) (h1 : S1x1024.ShapeCasts S1024) (h2 : S1024.ShapeCasts S1x1024)
    (hb : S1x1024.Broadcasts S16x1024) (hi : S16x1024.Iotas .tc 32 [0]) (hlt : 1 < 32) (a : Fin 16) (n : Fin 1024) :
    (sitofp .f32 (extui 32 (cmpi .eq (broadcastTo S16x1024 (shapeCast S1x1024 (shapeCast S1024 v25 h1) h2) hb)
        (iota .tc S16x1024 32 [0] hi)) hlt) : FVec Ideal S16x1024 .f32) (ix2 a n)
      = if (v25 (ix2 0 n)).toNat = a.val then 1 else 0 := by
  have e1 : broadcastTo S16x1024 (shapeCast S1x1024 (shapeCast S1024 v25 h1) h2) hb (ix2 a n) = v25 (ix2 0 n) := by
    rw [bcast_row16, shapeCast_shapeCast]
  refine (sitofp_apply _ _).trans ?_
  rw [extui_apply, cmpi_apply, e1, iota_at]
  exact onehot (v25 (ix2 0 n)) a

/-- The action the body gathers for lane n: the table entry its index word names, zero if the word names none. -/
theorem gathered (v25 : IVec S1x1024 32) (v33 : FVec Ideal S1x16x1 .f32)
    (h1 : S1x1024.ShapeCasts S1024) (h2 : S1024.ShapeCasts S1x1024) (hb : S1x1024.Broadcasts S16x1024)
    (hi : S16x1024.Iotas .tc 32 [0]) (hlt : 1 < 32) (hc : S1x16x1.ShapeCasts S16x1) (hbt : S16x1.Broadcasts S16x1024)
    (hr : S16x1024.Reduces [0] S1024) (hφ : FKind.Formats .f32) (hacc : (0x00000000#32 : BitVec 32) = 0x00000000#32)
    (n : Fin 1024) :
    multiReduction (F := Ideal) .add [0] S1024
        (mulf (sitofp .f32 (extui 32 (cmpi .eq (broadcastTo S16x1024 (shapeCast S1x1024 (shapeCast S1024 v25 h1) h2) hb)
                (iota .tc S16x1024 32 [0] hi)) hlt))
              (broadcastTo S16x1024 (shapeCast S16x1 v33 hc) hbt))
        0x00000000#32 hr hφ hacc (ix1 n)
      = if hw : (v25 (ix2 0 n)).toNat < 16 then v33 (ix3 0 ⟨(v25 (ix2 0 n)).toNat, hw⟩ 0) else 0 := by
  refine (lane_sum _ hr hφ hacc n).trans ?_
  refine Eq.trans (Finset.sum_congr rfl fun a _ => ?_) (sum_onehot (v25 (ix2 0 n)) fun a => v33 (ix3 0 a 0))
  refine (mulf_apply _ _ _).trans ?_
  rw [onehot_at, bcast_col16, cast_table]

/-! ## The stored row at an index -/

/-- One trip's stored row at (0, o, n): the second layer's sum over the hidden coordinates of the weight times the
    rectified first layer, plus the bias. The first layer at (h, n) is the embedding product plus its bias, plus the
    action's weight times the gathered action; every format change is the identity on the extended reals. -/
theorem pay_apply (v0 : Vec Ideal S256x1024 .f32) (v2 : Vec Ideal S256x256 .f32) (v4 v12 : Vec Ideal S256x1 .f32)
    (v15 : Vec Ideal S2x256 .f32) (v18 : Vec Ideal S2x1 .f32) (v25 : Vec Ideal S1x1024 .i32) (v33 : Vec Ideal S1x16x1 .f32)
    (o : Fin 2) (n : Fin 1024) :
    k0_pay1 (F := Ideal) v0 v2 v4 v12 v15 v18 v25 v33 (ix3 0 o n)
      = (∑ h : Fin 256, v15 (ix2 o h)
            * max (((∑ e : Fin 256, v2 (ix2 h e) * v0 (ix2 e n)) + v4 (ix2 h 0))
                    + v12 (ix2 h 0) * (if hw : (v25 (ix2 0 n)).toNat < 16 then v33 (ix3 0 ⟨(v25 (ix2 0 n)).toNat, hw⟩ 0) else 0)) 0)
        + v18 (ix2 o 0) := by
  unfold k0_pay1
  refine (cast_out _ _ o n).trans ?_
  refine (addf_apply _ _ _).trans ?_
  refine congrArg₂ (· + ·) ?_ ?_
  · refine (mm2_apply _ _ o n).trans ?_
    refine Finset.sum_congr rfl fun h _ => ?_
    refine congrArg₂ (· * ·) ?_ ?_
    · refine (truncf_apply (φ := .f32) (ψ := .bf16) _ _ _).trans ?_
      exact congrFun (shapeCast_self v15 _) (ix2 o h)
    · refine (maximumf_apply _ _ _).trans ?_
      refine congrArg₂ max ?_ ?_
      · refine (addf_apply _ _ _).trans ?_
        refine congrArg₂ (· + ·) ?_ ?_
        · refine (truncf_apply (φ := .f32) (ψ := .bf16) _ _ _).trans ?_
          refine (addf_apply _ _ _).trans ?_
          refine congrArg₂ (· + ·) ?_ ?_
          · refine (mm1_apply _ _ h n).trans ?_
            refine Finset.sum_congr rfl fun e _ => ?_
            refine congrArg₂ (· * ·) ?_ ?_
            · refine (truncf_apply (φ := .f32) (ψ := .bf16) _ _ _).trans ?_
              exact congrFun (shapeCast_self v2 _) (ix2 h e)
            · refine (truncf_apply (φ := .f32) (ψ := .bf16) _ _ _).trans ?_
              exact congrFun (shapeCast_self v0 _) (ix2 e n)
          · refine (bcast_col256 _ _ h n).trans ?_
            exact congrFun (shapeCast_self v4 _) (ix2 h 0)
        · refine (mulf_apply _ _ _).trans ?_
          refine congrArg₂ (· * ·) ?_ ?_
          · refine (bcast_col256 _ _ h n).trans ?_
            refine (truncf_apply (φ := .f32) (ψ := .bf16) _ _ _).trans ?_
            exact congrFun (shapeCast_self v12 _) (ix2 h 0)
          · refine (bcast_row256 _ _ h n).trans ?_
            refine (truncf_apply (φ := .f32) (ψ := .bf16) _ _ _).trans ?_
            refine (cast_row _ _ n).trans ?_
            exact gathered v25 v33 _ _ _ _ _ _ _ _ _ _ n
      · exact ofBits_zero_bf16
  · refine (bcast_col2 _ _ o n).trans ?_
    exact congrFun (shapeCast_self v18 _) (ix2 o 0)

end Cert.KPay

end
-- ==== Proof.Prefix.lean ====
/-
  What the host lines before the region leave in the windows' arrays, read at an index.

  Before the region the program rearranges its arguments: the action table gets a trailing unit axis, the embedding
  table and the second layer's weights are transposed, the first layer's weight matrix is cut into its first row (the
  action's weights, stored as a column) and its remaining 256 rows (the embedding's weights, transposed), and the two
  bias vectors are stored as columns.  Each of these is a relabelling of indices: the array the region reads holds, at
  every index, the argument's entry at the index named below.
-/
import proofs.«422123_j35029753266434_3_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KPrefix

open Idealize.ShloMosaic Idealize.ShloMosaic.TcCoe Idealize.ShloMosaic.Tactic
open Cert.KernelIdeal Cert.KernelIdeal.Gen Idealize.ShloMosaic.ValueIdx

variable {F : FTy → Type} [FloatOps F]
variable (m : (ℓ : Loc nD τ sig) → Buf (Elt F) ℓ)

/-- The action table with a trailing unit axis: entry (b, a, 0) is the argument's entry (b, a). -/
theorem V_v0 (c : Dev nD) (b : Fin 32) (a : Fin 16) :
    (V m c main_v0 : S32x16x1.Idx → Elt F .f32) (ix3 b a 0)
      = (m ((c : Thread nD τ).loc main_arg0) : S32x16.Idx → Elt F .f32) (ix2 b a) := by
  have e : (V m c main_v0 : S32x16x1.Idx → Elt F .f32)
      = broadcastInDim S32x16x1 ![0, 1] bcast_S32x16_S32x16x1_0_1
          (m ((c : Thread nD τ).loc main_arg0) : S32x16.Idx → Elt F .f32) := by
    show StableHlo.after hostOps0 (fun b => m (c, b)) (Proc.devRef .tc main_v0) = _
    after_results
  rw [e]
  exact broadcastInDim_apply _ _ _ _ _ (fun d => match d with | ⟨0, _⟩ => rfl | ⟨1, _⟩ => rfl)

/-- The embedding table transposed: entry (e, n) is the argument's entry (n, e). -/
theorem V_v1 (c : Dev nD) (e : Fin 256) (n : Fin 10000) :
    (V m c main_v1 : S256x10000.Idx → Elt F .f32) (ix2 e n)
      = (m ((c : Thread nD τ).loc main_arg2) : S10000x256.Idx → Elt F .f32) (ix2 n e) := by
  have h : (V m c main_v1 : S256x10000.Idx → Elt F .f32)
      = transpose S256x10000 [1, 0] (m ((c : Thread nD τ).loc main_arg2) : S10000x256.Idx → Elt F .f32)
          transposes_S10000x256_S256x10000_1_0 := by
    show StableHlo.after hostOps0 (fun b => m (c, b)) (Proc.devRef .tc main_v1) = _
    after_results
  rw [h]
  exact transpose_apply _ _ _ _ _ (fun d => match d with | ⟨0, _⟩ => rfl | ⟨1, _⟩ => rfl)

/-- Rows 1..256 of the first layer's weights, transposed: entry (h, e) is the argument's entry (e + 1, h). -/
theorem V_v3 (c : Dev nD) (h e : Fin 256) :
    (V m c main_v3 : S256x256.Idx → Elt F .f32) (ix2 h e)
      = (m ((c : Thread nD τ).loc main_arg3) : S257x256.Idx → Elt F .f32) (ix2 e.succ h) := by
  have q : (V m c main_v3 : S256x256.Idx → Elt F .f32)
      = transpose S256x256 [1, 0]
          (extractStridedSlice S256x256 ![1, 0] (m ((c : Thread nD τ).loc main_arg3) : S257x256.Idx → Elt F .f32)
            slices_S257x256_S256x256_1_0)
          transposes_S256x256_S256x256_1_0 := by
    show StableHlo.after hostOps0 (fun b => m (c, b)) (Proc.devRef .tc main_v3) = _
    after_results
  rw [q]
  refine (transpose_apply _ _ _ _ (ix2 e h) (fun d => match d with | ⟨0, _⟩ => rfl | ⟨1, _⟩ => rfl)).trans ?_
  exact extractStridedSlice_apply _ _ _ _ _ (fun d => match d with
    | ⟨0, _⟩ => by show e.val + 1 = 1 + e.val; omega
    | ⟨1, _⟩ => by show h.val = 0 + h.val; omega)

/-- Row 0 of the first layer's weights, stored as a column: entry (h, 0) is the argument's entry (0, h). -/
theorem V_v6 (c : Dev nD) (h : Fin 256) :
    (V m c main_v6 : S256x1.Idx → Elt F .f32) (ix2 h 0)
      = (m ((c : Thread nD τ).loc main_arg3) : S257x256.Idx → Elt F .f32) (ix2 0 h) := by
  have q : (V m c main_v6 : S256x1.Idx → Elt F .f32)
      = broadcastInDim S256x1 ![0] bcast_S256_S256x1_0
          (shapeCast S256
            (extractStridedSlice S1x256 ![0, 0] (m ((c : Thread nD τ).loc main_arg3) : S257x256.Idx → Elt F .f32)
              slices_S257x256_S1x256_0_0)
            shapeCasts_S1x256_S256) := by
    show StableHlo.after hostOps0 (fun b => m (c, b)) (Proc.devRef .tc main_v6) = _
    after_results
    rfl
  rw [q]
  refine (broadcastInDim_apply _ _ _ _ (ix1 h) (fun d => match d with | ⟨0, _⟩ => rfl)).trans ?_
  refine (shapeCast_apply _ _ _ (ix2 (0 : Fin 1) h) (by
    rw [Shape.rowMajor_val_two, Shape.rowMajor_val_one]
    show 0 * 256 + h.val = h.val; omega)).trans ?_
  exact extractStridedSlice_apply _ _ _ _ _ (fun d => match d with
    | ⟨0, _⟩ => by show 0 = 0 + 0; omega
    | ⟨1, _⟩ => by show h.val = 0 + h.val; omega)

/-- The first layer's bias, stored as a column: entry (h, 0) is the argument's entry h. -/
theorem V_v7 (c : Dev nD) (h : Fin 256) :
    (V m c main_v7 : S256x1.Idx → Elt F .f32) (ix2 h 0)
      = (m ((c : Thread nD τ).loc main_arg4) : S256.Idx → Elt F .f32) (ix1 h) := by
  have q : (V m c main_v7 : S256x1.Idx → Elt F .f32)
      = broadcastInDim S256x1 ![0] bcast_S256_S256x1_0
          (m ((c : Thread nD τ).loc main_arg4) : S256.Idx → Elt F .f32) := by
    show StableHlo.after hostOps0 (fun b => m (c, b)) (Proc.devRef .tc main_v7) = _
    after_results
  rw [q]
  exact broadcastInDim_apply _ _ _ _ _ (fun d => match d with | ⟨0, _⟩ => rfl)

/-- The second layer's weights transposed: entry (o, h) is the argument's entry (h, o). -/
theorem V_v8 (c : Dev nD) (o : Fin 2) (h : Fin 256) :
    (V m c main_v8 : S2x256.Idx → Elt F .f32) (ix2 o h)
      = (m ((c : Thread nD τ).loc main_arg5) : S256x2.Idx → Elt F .f32) (ix2 h o) := by
  have q : (V m c main_v8 : S2x256.Idx → Elt F .f32)
      = transpose S2x256 [1, 0] (m ((c : Thread nD τ).loc main_arg5) : S256x2.Idx → Elt F .f32)
          transposes_S256x2_S2x256_1_0 := by
    show StableHlo.after hostOps0 (fun b => m (c, b)) (Proc.devRef .tc main_v8) = _
    after_results
  rw [q]
  exact transpose_apply _ _ _ _ _ (fun d => match d with | ⟨0, _⟩ => rfl | ⟨1, _⟩ => rfl)

/-- The second layer's bias, stored as a column: entry (o, 0) is the argument's entry o. -/
theorem V_v9 (c : Dev nD) (o : Fin 2) :
    (V m c main_v9 : S2x1.Idx → Elt F .f32) (ix2 o 0)
      = (m ((c : Thread nD τ).loc main_arg6) : S2.Idx → Elt F .f32) (ix1 o) := by
  have q : (V m c main_v9 : S2x1.Idx → Elt F .f32)
      = broadcastInDim S2x1 ![0] bcast_S2_S2x1_0
          (m ((c : Thread nD τ).loc main_arg6) : S2.Idx → Elt F .f32) := by
    show StableHlo.after hostOps0 (fun b => m (c, b)) (Proc.devRef .tc main_v9) = _
    after_results
  rw [q]
  exact broadcastInDim_apply _ _ _ _ _ (fun d => match d with | ⟨0, _⟩ => rfl)

end Cert.KPrefix

end
-- ==== Proof.Spec.lean ====
/-
  The function both programs compute, over the extended reals, and the two arrangements of it.

  For a batch row b and an agent n the gathered action is  a(b,n) = abs[b, idx[b,n]]  (zero when the index word
  is not one of 0..15).  The first layer is  z(b,n,h) = a(b,n)·W1[0,h] + Σ_e emb[n,e]·W1[1+e,h] + b1[h],  the
  result  out(b,n,o) = Σ_h max(z(b,n,h),0)·W2[h,o] + b2[o].  The kernel computes the same number with the
  factors of each product and the three summands of z in another order, and stores it at (b,o,n); only the
  commutative and associative laws of + and · on the extended reals are used.
-/
import Idealize.ShloMosaic.PureOps.Ideal
import Idealize.ShloMosaic.Lib.ValueIdx

noncomputable section

open scoped BigOperators

namespace Cert.Spec

open Idealize.ShloMosaic Idealize.ShloMosaic.ValueIdx

abbrev SAbs : Shape := ⟨2, ![32, 16]⟩
abbrev SIdx : Shape := ⟨2, ![32, 10000]⟩
abbrev SEmb : Shape := ⟨2, ![10000, 256]⟩
abbrev SW1 : Shape := ⟨2, ![257, 256]⟩
abbrev SB1 : Shape := ⟨1, ![256]⟩
abbrev SW2 : Shape := ⟨2, ![256, 2]⟩
abbrev SB2 : Shape := ⟨1, ![2]⟩
abbrev SOut : Shape := ⟨3, ![32, 10000, 2]⟩
abbrev SOutT : Shape := ⟨3, ![32, 2, 10000]⟩

variable (abs : SAbs.Idx → EReal) (idx : SIdx.Idx → BitVec 32) (emb : SEmb.Idx → EReal) (W1 : SW1.Idx → EReal)
  (b1 : SB1.Idx → EReal) (W2 : SW2.Idx → EReal) (b2 : SB2.Idx → EReal)

/-- The action of agent `n` in batch row `b`: the table entry its index word names, zero if the word names none. -/
def assigned (b : Fin 32) (n : Fin 10000) : EReal :=
  if h : (idx (ix2 b n)).toNat < 16 then abs (ix2 b ⟨(idx (ix2 b n)).toNat, h⟩) else 0

/-- The first layer before the rectifier: row 0 of `W1` weighs the action, rows 1..256 the embedding. -/
def hidden (b : Fin 32) (n : Fin 10000) (h : Fin 256) : EReal :=
  (assigned abs idx b n * W1 (ix2 0 h) + ∑ e : Fin 256, emb (ix2 n e) * W1 (ix2 e.succ h)) + b1 (ix1 h)

/-- The result, index by index, in the reference's arrangement. -/
def G : SOut.Idx → EReal := fun j =>
  (∑ h : Fin 256, max (hidden abs idx emb W1 b1 (j 0) (j 1) h) 0 * W2 (ix2 h (j 2))) + b2 (ix1 (j 2))

/-- The same number as the kernel arranges it, stored at (b, o, n). -/
def Gk : SOutT.Idx → EReal := fun j =>
  (∑ h : Fin 256, W2 (ix2 h (j 1))
      * max (((∑ e : Fin 256, W1 (ix2 e.succ h) * emb (ix2 (j 2) e)) + b1 (ix1 h)) + W1 (ix2 0 h) * assigned abs idx (j 0) (j 2)) 0)
    + b2 (ix1 (j 1))

/-- The two arrangements agree: products commute, and the three summands of the first layer may be taken in any order. -/
theorem Gk_eq_G (b : Fin 32) (o : Fin 2) (n : Fin 10000) :
    Gk abs idx emb W1 b1 W2 b2 (ix3 b o n) = G abs idx emb W1 b1 W2 b2 (ix3 b n o) := by
  unfold Gk G hidden
  congr 1
  refine Finset.sum_congr rfl fun h _ => ?_
  rw [mul_comm]
  congr 2
  have e1 : (∑ e : Fin 256, W1 (ix2 e.succ h) * emb (ix2 n e)) = ∑ e : Fin 256, emb (ix2 n e) * W1 (ix2 e.succ h) :=
    Finset.sum_congr rfl fun e _ => mul_comm _ _
  show ((∑ e : Fin 256, W1 (ix2 e.succ h) * emb (ix2 n e)) + b1 (ix1 h)) + W1 (ix2 0 h) * assigned abs idx b n = _
  rw [e1, mul_comm (W1 (ix2 0 h)), add_right_comm, add_comm (∑ e : Fin 256, emb (ix2 n e) * W1 (ix2 e.succ h))]

end Cert.Spec

end
-- ==== Proof.KInside.lean ====
/-
  One stored entry, inside the array, as a function of the argument arrays.

  At grid point t the body's row payload at (b, o, n), n an agent of the block that exists, reads: column n of the
  embedding block, which is agent N = 1024 t + n of the embedding; entry (b, n) of the index block, which is the
  index word of agent N in batch row b; and whole weight, bias and table blocks, which are transposes, slices
  and columns of the argument arrays.  Substituting these the payload is Spec.Gk at (b, o, N): nothing read lies
  past an array's end, whatever the staging buffers hold there.
-/
import proofs.«422123_j35029753266434_3_alg».proof.Proof.KGeom
import proofs.«422123_j35029753266434_3_alg».proof.Proof.Payload
import proofs.«422123_j35029753266434_3_alg».proof.Proof.Prefix
import proofs.«422123_j35029753266434_3_alg».proof.Proof.Spec

set_option maxRecDepth 16384

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable (m : (ℓ : Loc nD τ sig) → Buf (Elt Ideal) ℓ)

/-- The result array the region leaves, [32, 2, 10000]: the kernel's arrangement of the specification. -/
def GkArr (c : Dev nD) : S32x2x10000.Idx → EReal :=
  Cert.Spec.Gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- A clipped block filled out with anything, read at an index inside the array's part, is the block there. -/
theorem fill0_apply (c : Dev nD) (t : Fin cfg0.N) (d : S32x1024.Idx → BitVec 32) (b : Fin 32) (n : Fin 1024)
    (hn : n.val < min 1024 (10000 - t.val * 1024)) (j : S32x10000.Idx) (h0 : (j 0 : ℕ) = b) (h1 : (j 1 : ℕ) = t.val * 1024 + n) :
    win0_0.fill (grid0.coords t) d (iblk m c 0 t) (ix2 b n) = (V m c main_arg1 : S32x10000.Idx → Elt Ideal .i32) j := by
  have hx := (xsize_moving t).2.1
  have hb : b.val < win0_0.xsize (grid0.coords t) 0 := by rw [hx.1]; exact b.isLt
  have hn' : n.val < win0_0.xsize (grid0.coords t) 1 := by rw [hx.2]; exact hn
  let y : (win0_0.xblock (grid0.coords t)).Idx := fun a => match a with | ⟨0, _⟩ => ⟨b.val, hb⟩ | ⟨1, _⟩ => ⟨n.val, hn'⟩
  have e : (ix2 b n : S32x1024.Idx) = win0_0.xinj (grid0.coords t) y := by
    funext a; apply Fin.ext; match a with | ⟨0, _⟩ => rfl | ⟨1, _⟩ => rfl
  rw [e, Window.fill_xinj]
  exact iblk0_apply m c t y j h0 h1

theorem fill2_apply (c : Dev nD) (t : Fin cfg0.N) (d : S256x1024.Idx → EReal) (e : Fin 256) (n : Fin 1024)
    (hn : n.val < min 1024 (10000 - t.val * 1024)) (j : S256x10000.Idx) (h0 : (j 0 : ℕ) = e) (h1 : (j 1 : ℕ) = t.val * 1024 + n) :
    win0_2.fill (grid0.coords t) d (iblk m c 2 t) (ix2 e n) = (V m c main_v1 : S256x10000.Idx → Elt Ideal .f32) j := by
  have hx := (xsize_moving t).2.2
  have he : e.val < win0_2.xsize (grid0.coords t) 0 := by rw [hx.1]; exact e.isLt
  have hn' : n.val < win0_2.xsize (grid0.coords t) 1 := by rw [hx.2]; exact hn
  let y : (win0_2.xblock (grid0.coords t)).Idx := fun a => match a with | ⟨0, _⟩ => ⟨e.val, he⟩ | ⟨1, _⟩ => ⟨n.val, hn'⟩
  have e' : (ix2 e n : S256x1024.Idx) = win0_2.xinj (grid0.coords t) y := by
    funext a; apply Fin.ext; match a with | ⟨0, _⟩ => rfl | ⟨1, _⟩ => rfl
  rw [e', Window.fill_xinj]
  exact iblk2_apply m c t y j h0 h1

/-- Row `b` of a [32, 1024] block read at (0, n) is the block at (b, n). -/
theorem row1_apply (x1 : Vec Ideal S32x1024 .i32) (k : Fin k0_t1_loop.trips) (n : Fin 1024) :
    View.ld x1 (Rect.unit (s := S32x1024) (k0_off1 k) S1x1024.size (k0_off1_inb k)) (ix2 0 n) = x1 (ix2 ⟨k.val, Nat.lt_of_lt_of_eq k.isLt trips_eq⟩ n) := by
  show x1 _ = x1 _
  congr 1; funext a; apply Fin.ext
  have ho := off1_eq k
  match a with
  | ⟨0, _⟩ => show k0_off1 k 0 + 1 * 0 = k.val; rw [ho]; show k.val + 1 * 0 = k.val; omega
  | ⟨1, _⟩ => show k0_off1 k 1 + 1 * n.val = n.val; rw [ho]; show 0 + 1 * n.val = n.val; omega

/-- Row `b` of the [32, 16, 1] table block read at (0, a, 0) is the block at (b, a, 0). -/
theorem row2_apply (x2 : Vec Ideal S32x16x1 .f32) (k : Fin k0_t1_loop.trips) (a : Fin 16) :
    View.ld x2 (Rect.unit (s := S32x16x1) (k0_off2 k) S1x16x1.size (k0_off2_inb k)) (ix3 0 a 0) = x2 (ix3 ⟨k.val, Nat.lt_of_lt_of_eq k.isLt trips_eq⟩ a 0) := by
  show x2 _ = x2 _
  congr 1; funext a'; apply Fin.ext
  have ho := off2_eq k
  match a' with
  | ⟨0, _⟩ => show k0_off2 k 0 + 1 * 0 = k.val; rw [ho]; show k.val + 1 * 0 = k.val; omega
  | ⟨1, _⟩ => show k0_off2 k 1 + 1 * a.val = a.val; rw [ho]; show 0 + 1 * a.val = a.val; omega
  | ⟨2, _⟩ => show k0_off2 k 2 + 1 * 0 = 0; rw [ho]; rfl

/-- THE ENTRY: inside the array, what the body stores at (b, o, n) of block `t` is `GkArr` at (b, o, 1024 t + n),
    whatever fills the two clipped input buffers past the arrays' end. -/
theorem out_entry (c : Dev nD) (t : Fin cfg0.N) (d0 : S32x1024.Idx → BitVec 32) (d2 : S256x1024.Idx → EReal)
    (b : Fin 32) (o : Fin 2) (n : Fin 1024) (hn : n.val < min 1024 (10000 - t.val * 1024)) (N : Fin 10000) (hN : N.val = t.val * 1024 + n.val) :
    outBuf (F := Ideal) (win0_0.fill (grid0.coords t) d0 (iblk m c 0 t)) (iblk m c 1 t) (win0_2.fill (grid0.coords t) d2 (iblk m c 2 t))
        (iblk m c 3 t) (iblk m c 4 t) (iblk m c 5 t) (iblk m c 6 t) (iblk m c 7 t) (ix3 b o n)
      = GkArr m c (ix3 b o N) := by
  unfold outBuf outRow
  show k0_pay1 (F := Ideal) _ _ _ _ _ _ _ _ (ix3 0 o n) = _
  rw [Cert.KPay.pay_apply]
  -- the loads, one by one, as entries of the argument arrays
  have hW2 : ∀ h : Fin 256, iblk m c 6 t (ix2 o h) = (m ((c : Thread nD τ).loc main_arg5)) (ix2 h o) := fun h => by
    rw [iblk6_eq]; exact Cert.KPrefix.V_v8 m c o h
  have hW1 : ∀ h e : Fin 256, iblk m c 3 t (ix2 h e) = (m ((c : Thread nD τ).loc main_arg3)) (ix2 e.succ h) := fun h e => by
    rw [iblk3_eq]; exact Cert.KPrefix.V_v3 m c h e
  have hEmb : ∀ e : Fin 256, win0_2.fill (grid0.coords t) d2 (iblk m c 2 t) (ix2 e n) = (m ((c : Thread nD τ).loc main_arg2)) (ix2 N e) := fun e => by
    rw [fill2_apply m c t d2 e n hn (ix2 e N) rfl hN]; exact Cert.KPrefix.V_v1 m c e N
  have hb1 : ∀ h : Fin 256, iblk m c 5 t (ix2 h 0) = (m ((c : Thread nD τ).loc main_arg4)) (ix1 h) := fun h => by
    rw [iblk5_eq]; exact Cert.KPrefix.V_v7 m c h
  have hw0 : ∀ h : Fin 256, iblk m c 4 t (ix2 h 0) = (m ((c : Thread nD τ).loc main_arg3)) (ix2 0 h) := fun h => by
    rw [iblk4_eq]; exact Cert.KPrefix.V_v6 m c h
  have hb2 : iblk m c 7 t (ix2 o 0) = (m ((c : Thread nD τ).loc main_arg6)) (ix1 o) := by
    rw [iblk7_eq]; exact Cert.KPrefix.V_v9 m c o
  have hidx : View.ld (win0_0.fill (grid0.coords t) d0 (iblk m c 0 t))
      (Rect.unit (s := S32x1024) (k0_off1 ⟨b.val, Nat.lt_of_lt_of_eq b.isLt trips_eq.symm⟩) S1x1024.size (k0_off1_inb _)) (ix2 0 n) = (m ((c : Thread nD τ).loc main_arg1)) (ix2 b N) := by
    rw [row1_apply, fill0_apply m c t d0 _ n hn (ix2 b N) rfl hN]; exact congrFun (V_main_arg1 m c) _
  have habs : ∀ a : Fin 16, View.ld (iblk m c 1 t)
      (Rect.unit (s := S32x16x1) (k0_off2 ⟨b.val, Nat.lt_of_lt_of_eq b.isLt trips_eq.symm⟩) S1x16x1.size (k0_off2_inb _)) (ix3 0 a 0) = (m ((c : Thread nD τ).loc main_arg0)) (ix2 b a) := fun a => by
    rw [row2_apply, iblk1_eq]; exact Cert.KPrefix.V_v0 m c b a
  unfold GkArr Cert.Spec.Gk Cert.Spec.assigned
  simp only [hW2, hW1, hEmb, hb1, hw0, hb2, hidx, habs]

/-- So the part of the output buffer inside the array is the block of `GkArr`. -/
theorem out_inside (c : Dev nD) (t : Fin cfg0.N) (d0 : S32x1024.Idx → BitVec 32) (d2 : S256x1024.Idx → EReal) :
    win0_8.cut (grid0.coords t) (outBuf (F := Ideal) (win0_0.fill (grid0.coords t) d0 (iblk m c 0 t)) (iblk m c 1 t) (win0_2.fill (grid0.coords t) d2 (iblk m c 2 t))
        (iblk m c 3 t) (iblk m c 4 t) (iblk m c 5 t) (iblk m c 6 t) (iblk m c 7 t))
      = (win0_8.blk t).view.read (Elt Ideal) (GkArr m c) := by
  funext y
  have hx := (xsize_moving t).1
  have hi := (idx_moving t).2.2
  have ht : t.val < 10 := Nat.lt_of_lt_of_eq t.isLt N_eq
  have hy0 : (y 0 : ℕ) < 32 := Nat.lt_of_lt_of_eq (y 0).isLt hx.1
  have hy1 : (y 1 : ℕ) < 2 := Nat.lt_of_lt_of_eq (y 1).isLt hx.2.1
  have hy2 : (y 2 : ℕ) < min 1024 (10000 - t.val * 1024) := Nat.lt_of_lt_of_eq (y 2).isLt hx.2.2
  have hy2' : (y 2 : ℕ) < 1024 := by omega
  have hN : t.val * 1024 + (y 2 : ℕ) < 10000 := by omega
  have e1 : win0_8.xinj (grid0.coords t) y = (ix3 (⟨(y 0 : ℕ), hy0⟩ : Fin 32) (⟨(y 1 : ℕ), hy1⟩ : Fin 2) (⟨(y 2 : ℕ), hy2'⟩ : Fin 1024) : S32x2x1024.Idx) := by
    funext a; apply Fin.ext; match a with | ⟨0, _⟩ => rfl | ⟨1, _⟩ => rfl | ⟨2, _⟩ => rfl
  have e2 : (win0_8.blk t).view.emb y = (ix3 (⟨(y 0 : ℕ), hy0⟩ : Fin 32) (⟨(y 1 : ℕ), hy1⟩ : Fin 2) (⟨t.val * 1024 + (y 2 : ℕ), hN⟩ : Fin 10000) : S32x2x10000.Idx) := by
    funext a; apply Fin.ext
    match a with
    | ⟨0, _⟩ => show win0_8.index t 0 * 32 + 1 * (y 0).val = (y 0 : ℕ); rw [hi.1]; omega
    | ⟨1, _⟩ => show win0_8.index t 1 * 2 + 1 * (y 1).val = (y 1 : ℕ); rw [hi.2.1]; omega
    | ⟨2, _⟩ => show win0_8.index t 2 * 1024 + 1 * (y 2).val = t.val * 1024 + (y 2 : ℕ); rw [hi.2.2]; omega
  show outBuf (F := Ideal) _ _ _ _ _ _ _ _ (win0_8.xinj (grid0.coords t) y) = GkArr m c ((win0_8.blk t).view.emb y)
  rw [e1, e2]
  exact out_entry m c t d0 d2 _ _ _ hy2 _ rfl

end Cert.KernelIdeal.Body
end
-- ==== Proof.KData.lean ====
/-
  The idealized kernel's run at the extended reals: the proof data of its one pipeline, the body obligation
  at every grid point, and the arrays after the run.

  The result array [32, 2, 10000] is written block by block; block t holds the agents 1024 t … 1024 t + 1023 that
  exist (784 of them at t = 9).  Inside the array every entry the body stores is the function Spec.Gk of the
  argument arrays at that entry: an output column depends only on the same column of the index block and of
  the embedding block, so the words past the arrays' end in those two staging buffers never reach an entry that
  is written back.
-/
import proofs.«422123_j35029753266434_3_alg».proof.Proof.BodyTriple
import proofs.«422123_j35029753266434_3_alg».proof.Proof.KInside

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The proof data -/

/-- After the body at point `t`: each input buffer holds its block (a clipped one filled out with zeros past the
    array's end, where nothing is stated), the result's buffer the block of `GkArr` (likewise filled out). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => 0#32) (iblk m c 0 t)
    | ⟨1, _⟩ => iblk m c 1 t
    | ⟨2, _⟩ => win0_2.fill (grid0.coords t) (fun _ => (0 : EReal)) (iblk m c 2 t)
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => win0_8.fill (grid0.coords t) (fun _ => (0 : EReal)) ((win0_8.blk t).view.read (Elt Ideal) (GkArr m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_1 (c : Dev nD) (t : Fin cfg0.N) : (dats m 0 c).after 1 t = iblk m c 1 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

/-- What the body finds: a clipped input just fetched (its block where the fetch landed, anything past it), -/
theorem before_0 (c : Dev nD) (t : Fin cfg0.N) (d) :
    (dats m 0 c).before 0 t d = win0_0.fill (grid0.coords t) d (iblk m c 0 t) := by
  unfold Dat.before; rw [if_pos (fetch0_0 t)]; rfl
theorem before_2 (c : Dev nD) (t : Fin cfg0.N) (d) :
    (dats m 0 c).before 2 t d = win0_2.fill (grid0.coords t) d (iblk m c 2 t) := by
  unfold Dat.before; rw [if_pos (fetch0_2 t)]; rfl
/-- a whole-array input at its block, fetched at this point or kept from the first, -/
theorem before_1 (c : Dev nD) (t : Fin cfg0.N) (d) : (dats m 0 c).before 1 t d = iblk m c 1 t :=
  before0_1_of m (dats m 0 c) (A_eq m c 1) (after_1 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
/-- the result's buffer at anything: every point writes it back. -/
theorem before_8 (c : Dev nD) (t : Fin cfg0.N) (d) : (dats m 0 c).before 8 t d = d :=
  (dats m 0 c).before_out_reset 8 rfl t (by
    by_cases h : t.val = 0
    · exact .inl h
    · exact .inr ⟨h, flush0_8 _⟩) d

/-! ## The body obligation -/

abbrev ms0 (t : Fin cfg0.N) : Memref sig .tc .vmem S32x1024 .i32 := win0_0.stage (cfg0.slots t 0)
abbrev ms1 (t : Fin cfg0.N) : Memref sig .tc .vmem S32x16x1 .f32 := win0_1.stage (cfg0.slots t 1)
abbrev ms2 (t : Fin cfg0.N) : Memref sig .tc .vmem S256x1024 .f32 := win0_2.stage (cfg0.slots t 2)
abbrev ms3 (t : Fin cfg0.N) : Memref sig .tc .vmem S256x256 .f32 := win0_3.stage (cfg0.slots t 3)
abbrev ms4 (t : Fin cfg0.N) : Memref sig .tc .vmem S256x1 .f32 := win0_4.stage (cfg0.slots t 4)
abbrev ms5 (t : Fin cfg0.N) : Memref sig .tc .vmem S256x1 .f32 := win0_5.stage (cfg0.slots t 5)
abbrev ms6 (t : Fin cfg0.N) : Memref sig .tc .vmem S2x256 .f32 := win0_6.stage (cfg0.slots t 6)
abbrev ms7 (t : Fin cfg0.N) : Memref sig .tc .vmem S2x1 .f32 := win0_7.stage (cfg0.slots t 7)
abbrev ms8 (t : Fin cfg0.N) : Memref sig .tc .vmem S32x2x1024 .f32 := win0_8.stage (cfg0.slots t 8)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns: the clipped windows' buffers stated on the part inside the array only. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare (win0_8.fill (grid0.coords t) d (win0_8.cut (grid0.coords t) ((dats m 0 c).after 8 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_1, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun (F := Ideal) c (grid0.coords t) _ _ _ _ _ _ _ _ _ _ _ _ _ _ _ _ _ _
    (win0_0.fill (grid0.coords t) d0 (iblk m c 0 t)) (iblk m c 1 t) (win0_2.fill (grid0.coords t) d2 (iblk m c 2 t))
    (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]
  · iexists d0
    rw [show (dats m 0 c).after 0 t = win0_0.fill (grid0.coords t) (fun _ => 0#32) (iblk m c 0 t) from by dsimp only [dats],
      Window.cut_fill]
    iexact H0
  isplitl [H1]; · iexact H1
  isplitl [H2]
  · iexists d2
    rw [show (dats m 0 c).after 2 t = win0_2.fill (grid0.coords t) (fun _ => (0 : EReal)) (iblk m c 2 t) from by dsimp only [dats],
      Window.cut_fill]
    iexact H2
  isplitl [H3]; · iexact H3
  isplitl [H4]; · iexact H4
  isplitl [H5]; · iexact H5
  isplitl [H6]; · iexact H6
  isplitl [H7]; · iexact H7
  iexists _
  rw [show (dats m 0 c).after 8 t = win0_8.fill (grid0.coords t) (fun _ => (0 : EReal)) ((win0_8.blk t).view.read (Elt Ideal) (GkArr m c)) from by dsimp only [dats],
    Window.cut_fill, ← out_inside m c t d0 d2, Window.fill_cut]
  iexact H8

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates with the pipeline's arrays at what the proof data computes and
    every other buffer at the host lines' result. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-! ## The arrays after the run -/

/-- Each block written back is the block of `GkArr`. -/
theorem flushed_eq (c : Dev nD) (t : Fin cfg0.N) :
    (dats m 0 c).flushed 8 t = ((cfg0.win 8).blk t).view.read (Elt Ideal) (GkArr m c) := by
  show win0_8.cut (grid0.coords t) ((dats m 0 c).after 8 t) = _
  rw [show (dats m 0 c).after 8 t = win0_8.fill (grid0.coords t) (fun _ => (0 : EReal)) ((win0_8.blk t).view.read (Elt Ideal) (GkArr m c)) from by dsimp only [dats],
    Window.cut_fill]

/-- An index of the result array lies in point `t`'s block iff its agent is one of the block's agents inside the array. -/
theorem mem_blk8 (t : Fin cfg0.N) (i : S32x2x10000.Idx) :
    i ∈ ((cfg0.win 8).blk t).view.set ↔ t.val * 1024 ≤ (i 2 : ℕ) ∧ (i 2 : ℕ) < t.val * 1024 + min 1024 (10000 - t.val * 1024) := by
  show i ∈ ((View.whole main_v10).slice (win0_8.rect t)).set ↔ _
  rw [View.set_slice_whole, Rect.mem_set_unit]
  have hi := (idx_moving t).2.2
  have hx := (xsize_moving t).1
  have h0 : (i 0 : ℕ) < 32 := (i 0).isLt
  have h1 : (i 1 : ℕ) < 2 := (i 1).isLt
  constructor
  · intro h
    have h2 := h 2
    change win0_8.index t 2 * 1024 ≤ (i 2 : ℕ) ∧ (i 2 : ℕ) < win0_8.index t 2 * 1024 + win0_8.xsize (grid0.coords t) 2 at h2
    rw [hi.2.2, hx.2.2] at h2
    exact h2
  · intro h a
    match a with
    | ⟨0, _⟩ =>
      change win0_8.index t 0 * 32 ≤ (i 0 : ℕ) ∧ (i 0 : ℕ) < win0_8.index t 0 * 32 + win0_8.xsize (grid0.coords t) 0
      rw [hi.1, hx.1]; omega
    | ⟨1, _⟩ =>
      change win0_8.index t 1 * 2 ≤ (i 1 : ℕ) ∧ (i 1 : ℕ) < win0_8.index t 1 * 2 + win0_8.xsize (grid0.coords t) 1
      rw [hi.2.1, hx.2.1]; omega
    | ⟨2, _⟩ =>
      change win0_8.index t 2 * 1024 ≤ (i 2 : ℕ) ∧ (i 2 : ℕ) < win0_8.index t 2 * 1024 + win0_8.xsize (grid0.coords t) 2
      rw [hi.2.2, hx.2.2]; exact h

/-- The ten blocks cover the result array: agent n is in block n / 1024. -/
theorem cover8 (i : S32x2x10000.Idx) : ∃ t : Fin cfg0.N, (cfg0.win 8).flush t = true ∧ i ∈ ((cfg0.win 8).blk t).view.set := by
  have h2 : (i 2 : ℕ) < 10000 := (i 2).isLt
  refine ⟨⟨(i 2 : ℕ) / 1024, by rw [N_eq]; omega⟩, flush0_8 _, ?_⟩
  rw [mem_blk8]
  show (i 2 : ℕ) / 1024 * 1024 ≤ (i 2 : ℕ) ∧ (i 2 : ℕ) < (i 2 : ℕ) / 1024 * 1024 + min 1024 (10000 - (i 2 : ℕ) / 1024 * 1024)
  omega

/-- So the result array ends holding `GkArr`. -/
theorem final8 (c : Dev nD) : (dats m 0 c).arrAt 8 cfg0.N = GkArr m c :=
  (dats m 0 c).arrAt_eq_of_cover 8 (GkArr m c) (fun t _ => flushed_eq m c t) cover8

end Cert.KernelIdeal.Body
end
-- ==== Proof.KRun.lean ====
/-
  The idealized kernel's run, in the form the claim takes: the result buffer at the specification, the seven
  argument arrays unchanged.

  After the region the program transposes the result array [32, 2, 10000] to [32, 10000, 2]; the region left the
  kernel's arrangement Spec.Gk in it, and Spec.Gk at (b, o, n) is Spec.G at (b, n, o).
-/
import proofs.«422123_j35029753266434_3_alg».proof.Proof.KData

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ) (ρ : Dev nD → PrngReg)

/-- The result buffer after the host line that follows the region: the transpose of the result array. -/
theorem tail_v11 (c : Dev nD) :
    Pipeline.afterTail₀ cfgs (dats m) 0 (V0 m) [hostOps1] c main_v11
      = transpose S32x10000x2 [0, 2, 1] (GkArr m c) transposes_S32x2x10000_S32x10000x2_0_2_1 := by
  unfold Pipeline.afterTail₀
  show StableHlo.after hostOps1 _ (Proc.devRef .tc main_v11) = _
  after_results
  exact congrArg (fun x => transpose S32x10000x2 [0, 2, 1] x transposes_S32x2x10000_S32x10000x2_0_2_1)
    ((Pipeline.withArrays_arr spec0 launch0.win.arr_inj c _ _ 8).trans (final8 m c))

/-- Read at (b, n, o) it is the specification there. -/
theorem tail_v11_eq (c : Dev nD) :
    Pipeline.afterTail₀ cfgs (dats m) 0 (V0 m) [hostOps1] c main_v11
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [tail_v11]
  funext j
  obtain ⟨b, n, o, rfl⟩ : ∃ (b : Fin 32) (n : Fin 10000) (o : Fin 2), j = ix3 b n o := ⟨j 0, j 1, j 2, eq_ix3 j⟩
  refine (transpose_apply _ _ _ _ (ix3 b o n) (fun d => match d with | ⟨0, _⟩ => rfl | ⟨1, _⟩ => rfl | ⟨2, _⟩ => rfl)).trans ?_
  exact Cert.Spec.Gk_eq_G _ _ _ _ _ _ _ b o n

/-- Every weakly fair execution of the idealized kernel's @main terminates with the result buffer at the
    specification of the argument arrays and those arrays unchanged. -/
theorem run_value : θ_run defs (onTc (τ := τ) (main (F := Ideal))) ⟨m, fun _ => 0, ρ⟩ fun r => ∀ c : Dev nD,
    r.2.mem ((c.tc : Thread nD τ).loc main_v11)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v11 (Pipeline.mem_restRefs_of main_v11 (by decide) (by decide))).trans (tail_v11_eq m c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Body
end
-- ==== Proof.RefSpec.lean ====
/-
  The reference side read back: under the index-range precondition (every index word is one of 0..15) the reference
  program's result is the function `Cert.Spec.G` of its arguments, and the arguments are unchanged.

  The reference gathers `a(b,n) = abs[b, idx[b,n]]` through an index normalisation (`idx < 0 ? idx + 16 : idx`), an
  in-bounds mask (`0 ≤ · ≤ 15`, reduced by `and` along an axis of extent one) and a clamped gather, and selects the
  gathered value where the mask is set. With the word in `0..15` the normalisation keeps it, the mask is set, the clamp
  is the identity, and the select keeps the gathered value: `a(b,n)` is `Cert.Spec.assigned`. The concatenated row
  `[a(b,n) | emb[n,·]]` contracted with `W1` splits, column 0 against the other 256, into the two summands of
  `Cert.Spec.hidden`; the rectifier's constant is zero; the second contraction and bias are `Cert.Spec.G` verbatim.
-/
import proofs.«422123_j35029753266434_3_alg».proof.Proof.RefRead
import proofs.«422123_j35029753266434_3_alg».proof.Proof.Spec
import Idealize.ShloMosaic.Lib.Affine
import Idealize.ShloMosaic.Lib.Pipeline.Value
import Idealize.ShloMosaic.Lib.ValueIdx
import Idealize.ShloMosaic.PureOps.Reduce
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The index word in range

A word `w` with `w.toNat < 16` is, read signed, the same number: between 0 and 15. -/

theorem toInt_of_lt16 {w : BitVec 32} (h : w.toNat < 16) : w.toInt = (w.toNat : Int) :=
  BitVec.toInt_eq_toNat_of_lt (by omega)

/-- The normalising select keeps a word that is not negative. -/
theorem v4_apply (x1 : S32x10000.Idx → BitVec 32) (hidx : ∀ i : S32x10000.Idx, (x1 i).toNat < 16) (i : S32x10000.Idx) :
    val_main_call0_v4 (F := Ideal) x1 i = x1 i := by
  rw [val_main_call0_v4_apply, val_main_call0_v1_apply, val_main_call0_v0_apply, val_main_call0_c_apply]
  have h : ¬ IntOp.cmpi .slt (x1 i) 0#32 = 1#1 := by
    rw [IntOp.cmpi_slt, toInt_of_lt16 (hidx i)]
    simp
  unfold Scalar.select
  exact if_neg h

/-- The start-index table `[b, n, 0]` holds the word of `(b, n)`. -/
theorem v5_apply (x1 : S32x10000.Idx → BitVec 32) (hidx : ∀ i : S32x10000.Idx, (x1 i).toNat < 16) (k : S32x10000x1.Idx) :
    val_main_call0_v5 (F := Ideal) x1 k = x1 (ix2 (k 0) (k 1)) := by
  rw [val_main_call0_v5_apply, v4_apply x1 hidx]
  congr 1
  funext a
  have h0 : (k 0).val < 32 := (k 0).isLt
  have h1 : (k 1).val < 10000 := (k 1).isLt
  have h2 : (k 2).val < 1 := (k 2).isLt
  match a with
  | ⟨0, _⟩ => exact Fin.ext (by show (((k 0).val * 10000 + (k 1).val) * 1 + (k 2).val) / 10000 = (k 0).val; omega)
  | ⟨1, _⟩ => exact Fin.ext (by show (((k 0).val * 10000 + (k 1).val) * 1 + (k 2).val) % 10000 = (k 1).val; omega)

/-- The in-bounds mask is set everywhere. -/
theorem v11_apply (x1 : S32x10000.Idx → BitVec 32) (hidx : ∀ i : S32x10000.Idx, (x1 i).toNat < 16) (k : S32x10000x1.Idx) :
    val_main_call0_v11 (F := Ideal) x1 k = 1#1 := by
  have hw := hidx (ix2 (k 0) (k 1))
  rw [val_main_call0_v11_apply, IntOp.andi_eq_one, val_main_call0_v7_apply, val_main_call0_v10_apply,
    val_main_call0_v6_apply, val_main_call0_c_2_apply, val_main_call0_v9_apply, val_main_call0_v8_apply,
    val_main_call0_c_1_apply, v5_apply x1 hidx, IntOp.cmpi_sge, IntOp.cmpi_sle, toInt_of_lt16 hw]
  have h15 : (15#32 : BitVec 32).toInt = 15 := by decide
  have h0 : (0#32 : BitVec 32).toInt = 0 := by decide
  rw [h15, h0]
  omega

/-- A fold by `and` from 1 over words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- The mask reduced along its last axis is set everywhere. -/
theorem v12_apply (x1 : S32x10000.Idx → BitVec 32) (hidx : ∀ i : S32x10000.Idx, (x1 i).toNat < 16) (j : S32x10000.Idx) :
    val_main_call0_v12 (F := Ideal) x1 j = 1#1 := by
  unfold val_main_call0_v12
  rw [Host.reduce_eq_foldl]
  exact foldl_andi_one _ (v11_apply x1 hidx) _

/-! ## The gather

The gather has one batching axis (the row `b`) and one collapsed, start-indexed axis (the table position): result
`(b, n)` reads the table's row `b` at the start index `[b, n, 0]`, read signed and clamped into `0..15`. -/

theorem gather_apply (x0 : S32x16.Idx → EReal) (idx : IVec S32x10000x1 32) (b : Fin 32) (n : Fin 10000) :
    Host.gather gather_S32x16_S32x10000x1_S32x10000_n_1_0_0_1_2_11 x0 idx (ix2 b n)
      = x0 (ix2 b ⟨min (idx (ix3 b n 0)).toInt.toNat 15, by omega⟩) := by
  unfold Host.gather
  congr 1
  funext a
  refine Fin.ext ?_
  match a with
  | ⟨0, _⟩ =>
    show gather_S32x16_S32x10000x1_S32x10000_n_1_0_0_1_2_11.start (ix2 b n) idx 0 + gather_S32x16_S32x10000x1_S32x10000_n_1_0_0_1_2_11.batchCoord (ix2 b n) 0 + gather_S32x16_S32x10000x1_S32x10000_n_1_0_0_1_2_11.offCoord (ix2 b n) 0 = b.val
    rw [gather_S32x16_S32x10000x1_S32x10000_n_1_0_0_1_2_11.start_batching (ix2 b n) idx 0 (List.mem_singleton.mpr rfl),
      gather_S32x16_S32x10000x1_S32x10000_n_1_0_0_1_2_11.offCoord_eq_zero (ix2 b n) 0 (fun h => ((gather_S32x16_S32x10000x1_S32x10000_n_1_0_0_1_2_11.mem_sKept 0).mp h).2 (List.mem_singleton.mpr rfl))]
    show 0 + gather_S32x16_S32x10000x1_S32x10000_n_1_0_0_1_2_11.batchCoord (ix2 b n) 0 + 0 = b.val
    rw [Nat.zero_add, Nat.add_zero]
    rfl
  | ⟨1, _⟩ =>
    show gather_S32x16_S32x10000x1_S32x10000_n_1_0_0_1_2_11.start (ix2 b n) idx 1 + gather_S32x16_S32x10000x1_S32x10000_n_1_0_0_1_2_11.batchCoord (ix2 b n) 1 + gather_S32x16_S32x10000x1_S32x10000_n_1_0_0_1_2_11.offCoord (ix2 b n) 1 = min (idx (ix3 b n 0)).toInt.toNat 15
    rw [gather_S32x16_S32x10000x1_S32x10000_n_1_0_0_1_2_11.batchCoord_eq_zero (ix2 b n) 1 (by decide),
      gather_S32x16_S32x10000x1_S32x10000_n_1_0_0_1_2_11.offCoord_eq_zero (ix2 b n) 1 (fun h => ((gather_S32x16_S32x10000x1_S32x10000_n_1_0_0_1_2_11.mem_sKept 1).mp h).1 (List.mem_singleton.mpr rfl)), Nat.add_zero]
    unfold GatherDims.start
    rw [dif_pos (show (1 : Fin S32x16.rank) ∈ gather_S32x16_S32x10000x1_S32x10000_n_1_0_0_1_2_11.startIndexMap from List.mem_singleton.mpr rfl)]
    have hsi : gather_S32x16_S32x10000x1_S32x10000_n_1_0_0_1_2_11.siIdx (ix2 b n) ⟨List.idxOf (1 : Fin S32x16.rank) gather_S32x16_S32x10000x1_S32x10000_n_1_0_0_1_2_11.startIndexMap,
        List.idxOf_lt_length_iff.2 (List.mem_singleton.mpr rfl)⟩ = ix3 b n 0 := by
      funext c; refine Fin.ext ?_
      match c with
      | ⟨0, _⟩ => rfl
      | ⟨1, _⟩ => rfl
      | ⟨2, _⟩ => rfl
    rw [hsi]
    rfl

/-! ## The gathered action -/

/-- With the mask set the select keeps the gathered value: the table entry the word names. -/
theorem v0_apply (x0 : S32x16.Idx → EReal) (x1 : S32x10000.Idx → BitVec 32) (hidx : ∀ i : S32x10000.Idx, (x1 i).toNat < 16)
    (b : Fin 32) (n : Fin 10000) :
    val_main_v0 (F := Ideal) x0 x1 (ix2 b n) = Cert.Spec.assigned x0 x1 b n := by
  have hw := hidx (ix2 b n)
  rw [val_main_v0_apply, v12_apply x1 hidx]
  unfold Scalar.select
  rw [if_pos (show (1#1 : BitVec 1) = 1 from rfl)]
  unfold val_main_call0_v13
  rw [gather_apply]
  unfold Cert.Spec.assigned
  rw [dif_pos hw]
  refine congrArg x0 (funext fun a => ?_)
  match a with
  | ⟨0, _⟩ => rfl
  | ⟨1, _⟩ =>
    refine Fin.ext ?_
    show min (val_main_call0_v5 (F := Ideal) x1 (ix3 b n 0)).toInt.toNat 15 = (x1 (ix2 b n)).toNat
    rw [v5_apply x1 hidx]
    show min (x1 (ix2 b n)).toInt.toNat 15 = (x1 (ix2 b n)).toNat
    rw [toInt_of_lt16 hw, Int.toNat_natCast]
    omega

/-! ## The concatenated row, the two layers -/

section Layers

variable (x0 : S32x16.Idx → EReal) (x1 : S32x10000.Idx → BitVec 32) (x2 : S10000x256.Idx → EReal)
  (x3 : S257x256.Idx → EReal) (x4 : S256.Idx → EReal) (x5 : S256x2.Idx → EReal) (x6 : S2.Idx → EReal)

/-- Column 0 of the concatenated row is the gathered action. -/
theorem v4_apply_zero (hidx : ∀ i : S32x10000.Idx, (x1 i).toNat < 16) (b : Fin 32) (n : Fin 10000) (h : Fin 256) :
    val_main_v4 (F := Ideal) x0 x1 x2 (lidx_main_v5 (ix3 b n h) 0) = Cert.Spec.assigned x0 x1 b n := by
  unfold val_main_v4
  rw [concatenate_pair_apply_left (t := S32x10000x257) (s₁ := S32x10000x1) (s₂ := S32x10000x256) 2 _ _ _
    (lidx_main_v5 (ix3 b n h) 0) rfl (ix3 b n (0 : Fin 1))
    (fun c => match c with | ⟨0, _⟩ => rfl | ⟨1, _⟩ => rfl | ⟨2, _⟩ => rfl)]
  have hi : idx_main_v1 (ix3 b n (0 : Fin 1)) = ix2 b n := funext fun a =>
    match a with | ⟨0, _⟩ => rfl | ⟨1, _⟩ => rfl
  rw [val_main_v1_apply, hi]
  exact v0_apply x0 x1 hidx b n

/-- Column `1 + e` of the concatenated row is the embedding's entry `e`. -/
theorem v4_apply_succ (b : Fin 32) (n : Fin 10000) (h : Fin 256) (e : Fin 256) :
    val_main_v4 (F := Ideal) x0 x1 x2 (lidx_main_v5 (ix3 b n h) e.succ) = x2 (ix2 n e) := by
  unfold val_main_v4
  rw [concatenate_pair_apply_right (t := S32x10000x257) (s₁ := S32x10000x1) (s₂ := S32x10000x256) 2 _ _ _
    (lidx_main_v5 (ix3 b n h) e.succ) rfl rfl (ix3 b n e)
    (fun c hc => match c with
      | ⟨0, _⟩ => rfl
      | ⟨1, _⟩ => rfl
      | ⟨2, _⟩ => absurd rfl hc)
    rfl]
  rw [val_main_v3_apply, val_main_v2_apply]
  refine congrArg x2 (funext fun a => ?_)
  match a with
  | ⟨0, _⟩ => rfl
  | ⟨1, _⟩ => rfl

/-- The first layer before the rectifier. -/
theorem v8_apply (hidx : ∀ i : S32x10000.Idx, (x1 i).toNat < 16) (b : Fin 32) (n : Fin 10000) (h : Fin 256) :
    val_main_v8 (F := Ideal) x0 x1 x2 x3 x4 (ix3 b n h) = Cert.Spec.hidden x0 x1 x2 x3 x4 b n h := by
  rw [val_main_v8_apply, val_main_v5_apply, val_main_v7_apply, val_main_v6_apply, Fin.sum_univ_succ,
    v4_apply_zero x0 x1 x2 hidx]
  unfold Cert.Spec.hidden
  rw [Ideal.addf_def]
  have hr : ∀ k : Fin 257, ridx_main_v5 (ix3 b n h) k = ix2 k h := fun k => funext fun a =>
    match a with | ⟨0, _⟩ => rfl | ⟨1, _⟩ => rfl
  have hb : idx_main_v6 (idx_main_v7 (ix3 b n h)) = ix1 h := funext fun a => match a with | ⟨0, _⟩ => rfl
  rw [hr, hb]
  refine congrArg (fun s => (Cert.Spec.assigned x0 x1 b n * x3 (ix2 0 h) + s) + x4 (ix1 h)) (Finset.sum_congr rfl fun e _ => ?_)
  rw [v4_apply_succ x0 x1 x2, hr]

/-- The result, index by index. -/
theorem v13_apply (hidx : ∀ i : S32x10000.Idx, (x1 i).toNat < 16) (b : Fin 32) (n : Fin 10000) (o : Fin 2) :
    val_main_v13 (F := Ideal) x0 x1 x2 x3 x4 x5 x6 (ix3 b n o) = Cert.Spec.G x0 x1 x2 x3 x4 x5 x6 (ix3 b n o) := by
  rw [val_main_v13_apply, val_main_v10_apply, val_main_v12_apply, val_main_v11_apply]
  show _ + _ = (∑ h : Fin 256, max (Cert.Spec.hidden x0 x1 x2 x3 x4 b n h) 0 * x5 (ix2 h o)) + x6 (ix1 o)
  have hb : idx_main_v11 (idx_main_v12 (ix3 b n o)) = ix1 o := funext fun a => match a with | ⟨0, _⟩ => rfl
  rw [hb]
  refine congrArg (fun s => s + x6 (ix1 o)) (Finset.sum_congr rfl fun h _ => ?_)
  have hr : ridx_main_v10 (ix3 b n o) h = ix2 h o := funext fun a => match a with | ⟨0, _⟩ => rfl | ⟨1, _⟩ => rfl
  have hl : lidx_main_v10 (ix3 b n o) h = ix3 b n h := funext fun a =>
    match a with | ⟨0, _⟩ => rfl | ⟨1, _⟩ => rfl | ⟨2, _⟩ => rfl
  rw [hr, hl, val_main_v9_apply, val_main_call1_v0_apply, val_main_call1_cst_apply, Ideal.ofBits_def, Ideal.ofBits_zero_f32,
    Ideal.maximumf_def, v8_apply x0 x1 x2 x3 x4 hidx]

/-- Under the index-range precondition the reference's result is `G` of its arguments. -/
theorem result_eq (hidx : ∀ i : S32x10000.Idx, (x1 i).toNat < 16) :
    val_main_v13 (F := Ideal) x0 x1 x2 x3 x4 x5 x6 = Cert.Spec.G x0 x1 x2 x3 x4 x5 x6 := by
  funext j
  obtain ⟨b, n, o, rfl⟩ : ∃ (b : Fin 32) (n : Fin 10000) (o : Fin 2), j = ix3 b n o := ⟨j 0, j 1, j 2, eq_ix3 j⟩
  exact v13_apply x0 x1 x2 x3 x4 x5 x6 hidx b n o

end Layers

/-! ## The run

Every weakly fair execution of the reference terminates with its result at `G` of the arguments' launch contents, the
arguments unchanged: the generated run states the result as the operations' composed term, which is the last stage, which
is `G` under the index-range precondition. -/

theorem run_spec (m : (ℓ : Loc nD τ sig) → Buf (Elt Ideal) ℓ) (ρ : Dev nD → PrngReg)
    (hidx : ∀ (c : Dev nD) (i : S32x10000.Idx), (m ((c.tc : Thread nD τ).loc main_arg1) i).toNat < 16) :
    θ_run (defs (F := Ideal)) (onTc (τ := τ) (main (F := Ideal))) ⟨m, fun _ => 0, ρ⟩ fun r => ∀ c : Dev nD,
      r.2.mem ((c.tc : Thread nD τ).loc main_v13)
        = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).1.trans (Cert.ReferenceIdeal.Read.val_main_v13_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))).trans
          (result_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (hidx c)),
        (h c).2⟩)
    (Cert.ReferenceIdeal.Value.run (F := Ideal) m ρ)

end Cert.RefSide

end
-- ==== Proof.PreIdx.lean ====
/-
  The index range, read out of the printed precondition.

  The precondition is the conjunction of six finiteness tests on the float arguments and, last, the test that every
  index word w of the second argument satisfies 0 ≤ w < 16 as a signed 32-bit number.  A conjunction of bits that is 1
  has every conjunct 1; an "all" over an array that is 1 has a 1 at every index; and a word that reads, signed, as a
  number between 0 and 15 reads the same unsigned.  Only the last conjunct is used; the float tests are not read.
-/
import proofs.«422123_j35029753266434_3_alg».proof.Pre_finite_inputs
import Idealize.ShloMosaic.Lib.ReduceAll
import Idealize.ShloMosaic.Lib.Affine
import Idealize.ShloMosaic.Lib.ValueIdx
import Idealize.ShloMosaic.Lib.StableHlo.Predicate

noncomputable section

namespace Cert.PreIdx

open Idealize.ShloMosaic Cert.Pre_finite_inputs

/-- The scalar shape has one index. -/
instance : Subsingleton S_.Idx := ⟨fun a b => funext fun d => d.elim0⟩

/-- A 32-bit word whose signed reading lies in 0..15 has its unsigned reading there too. -/
theorem toNat_lt_of_toInt (w : BitVec 32) (h0 : 0 ≤ w.toInt) (h1 : w.toInt < 16) : w.toNat < 16 := by
  rw [BitVec.toInt_eq_toNat_cond] at h0 h1
  have := w.isLt
  split at h0 <;> omega

theorem idx_of_pre {F : FTy → Type} [FloatOps F] [Cert.Pre_finite_inputs.Facts]
    (a0 : FVec F Cert.Pre_finite_inputs.S32x16 .f32) (a1 : IVec Cert.Pre_finite_inputs.S32x10000 32)
    (a2 : FVec F Cert.Pre_finite_inputs.S10000x256 .f32) (a3 : FVec F Cert.Pre_finite_inputs.S257x256 .f32)
    (a4 : FVec F Cert.Pre_finite_inputs.S256 .f32) (a5 : FVec F Cert.Pre_finite_inputs.S256x2 .f32)
    (a6 : FVec F Cert.Pre_finite_inputs.S2 .f32)
    (h : Cert.Pre_finite_inputs.fn (F := F) a0 a1 a2 a3 a4 a5 a6 = fun _ => 1#1) : ∀ i, (a1 i).toNat < 16 := by
  intro i
  have h0 := congrFun h ValueIdx.ix0
  dsimp only [fn, fn_part1, fn_part2] at h0
  have h1 := (IntOp.andi_eq_one.1 h0).2
  have h2 := Host.reduce_andi_all _ _ _ _ _ h1 i
  obtain ⟨hge, hlt⟩ := IntOp.andi_eq_one.1 h2
  have hge' := IntOp.cmpi_sge.1 hge
  have hlt' := IntOp.cmpi_slt.1 hlt
  refine toNat_lt_of_toInt _ ?_ ?_
  · exact hge'
  · exact hlt'

end Cert.PreIdx

end
-- ==== Proof.lean ====
/-
  The assembly of the certificate's five claims.

  Both programs, read at the extended reals, end with one function of their seven arguments in the result: the
  specification's `Cert.Spec.G`. The kernel does so on every input, the reference where each index word is below 16,
  which is the last conjunct of the precondition. From arguments that agree array by array the two results are
  therefore equal, and each run leaves its arguments unchanged; the kernel as printed leaves them unchanged too, and the
  idealization rewrote no operation.
-/
import proofs.«422123_j35029753266434_3_alg».proof.Defs
import proofs.«422123_j35029753266434_3_alg».proof.Proof.Gen.Kernel
import proofs.«422123_j35029753266434_3_alg».proof.Proof.Gen.KernelIdeal
import proofs.«422123_j35029753266434_3_alg».proof.Proof.Gen.ReferenceIdeal
import proofs.«422123_j35029753266434_3_alg».proof.Proof.Gen.Pre_finite_inputs
import proofs.«422123_j35029753266434_3_alg».proof.Proof.KernelFrame
import proofs.«422123_j35029753266434_3_alg».proof.Proof.KRun
import proofs.«422123_j35029753266434_3_alg».proof.Proof.RefSpec
import proofs.«422123_j35029753266434_3_alg».proof.Proof.PreIdx

noncomputable section

open Idealize.ShloMosaic Idealize.ShloMosaic.TcCoe Idealize.SL.Sem

namespace Cert.Proof

/-- The kernel as printed runs and leaves its seven arguments unchanged, whatever they hold. -/
theorem frame_k : Cert.frame_Kernel := fun m ρ _ => Cert.Kernel.Body.frame (F := Bits) m ρ

/-- So does its reading at the extended reals: the value run says more, and the result's conjunct is dropped. -/
theorem frame_ki : Cert.frame_KernelIdeal := fun m ρ _ =>
  (θ_run Cert.KernelIdeal.defs _ _).mono (fun _ h c => (h c).2) (Cert.KernelIdeal.Body.run_value m ρ)

/-- The precondition's last conjunct: on every device each index word of the second argument is below 16. -/
theorem idx_lt (m : (ℓ : Loc Cert.ReferenceIdeal.nD Cert.ReferenceIdeal.τ Cert.ReferenceIdeal.sig) → Buf (Elt Ideal) ℓ) (hpre : Cert.Pre_ReferenceIdeal m)
    (c : Dev Cert.ReferenceIdeal.nD) (i : Cert.ReferenceIdeal.S32x10000.Idx) : (m ((c.tc : Thread Cert.ReferenceIdeal.nD Cert.ReferenceIdeal.τ).loc Cert.ReferenceIdeal.main_arg1) i).toNat < 16 :=
  Cert.PreIdx.idx_of_pre (F := Ideal) _ _ _ _ _ _ _ (hpre c) i

/-- The reference at the extended reals runs where the index words are in range, and leaves its arguments unchanged. -/
theorem frame_ri : Cert.frame_ReferenceIdeal := fun m ρ hpre =>
  (θ_run Cert.ReferenceIdeal.defs _ _).mono (fun _ h c => (h c).2) (Cert.RefSide.run_spec m ρ (idx_lt m hpre))

/-- The idealization rewrote no operation: nothing to preserve. -/
theorem preserves : Cert.preserves_Kernel_KernelIdeal := trivial

/-- Both programs end with the one function `Cert.Spec.G` of their seven arguments in the result. The kernel does so for
    every input; the reference where the index words are in range, which the precondition gives for the kernel's
    arguments and hence, the arguments agreeing array by array, for the reference's. The common value is `G` of the
    kernel's arguments; the reference's `G` of its own is the same by the seven agreements. -/
theorem algebraic : Cert.algebraic_KernelIdeal_ReferenceIdeal := by
  intro m ρ m' ρ' hpre hagree
  have hpre' : Cert.Pre_ReferenceIdeal m' := fun c => by
    obtain ⟨h0, h1, h2, h3, h4, h5, h6⟩ := hagree c
    rw [h0, h1, h2, h3, h4, h5, h6]
    exact hpre c
  refine ⟨_, Cert.KernelIdeal.Body.run_value m ρ, ?_⟩
  refine (θ_run Cert.ReferenceIdeal.defs _ _).mono (fun _ h c => ⟨(h c).1.trans ?_, (h c).2⟩)
    (Cert.RefSide.run_spec m' ρ' (idx_lt m' hpre'))
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
